-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S7000x128 : Shape := ⟨2, ![7000, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S7000x128 : S_.BroadcastsInDim S7000x128 (![] : Fin 0 → Fin S7000x128.rank)
  reducesTo_S7000x128_S_d0_1 : S7000x128.ReducesTo [0, 1] S_
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S524288x128 .f32) (main_arg1 : IVec S524288 32) (main_arg2 : FVec F S7000x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S7000x128 .f32 := Host.absf main_arg2
  let main_cst_0 : FVec F S_ .f32 := constant S_ .f32 0x7F800000#32
  let main_v5 : FVec F S7000x128 .f32 := broadcastInDim S7000x128 ![] bcast_S_S7000x128 main_cst_0
  let main_v6 : IVec S7000x128 1 := cmpf .olt main_v4 main_v5
  let main_c_1 : IVec S_ 1 := constantI S_ 1 1#1
  let main_v7 : IVec S_ 1 := (fun x v => Host.reduce IntOp.andi x v reducesTo_S7000x128_S_d0_1 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg1 main_v9
  let main_c_3 : IVec S_ 32 := constantI S_ 32 7000#32
  let main_v11 : IVec S524288 32 := broadcastInDim S524288 ![] bcast_S_S524288 main_c_3
  let main_v12 : IVec S524288 1 := cmpi .slt main_arg1 main_v11
  let main_v13 : IVec S524288 1 := andi main_v10 main_v12
  let main_c_4 : IVec S_ 1 := constantI S_ 1 1#1
  let main_v14 : IVec S_ 1 := (fun x v => Host.reduce IntOp.andi x v reducesTo_S524288_S_d0 h_S_) main_v13 main_c_4
  let main_v15 : IVec S_ 1 := andi main_v8 main_v14
  main_v15
-- ==== Kernel.lean ====
abbrev S524288x128 : Shape := ⟨2, ![524288, 128]⟩
abbrev S524288 : Shape := ⟨1, ![524288]⟩
abbrev S7000x128 : Shape := ⟨2, ![7000, 128]⟩
abbrev S2x128x7000 : Shape := ⟨3, ![2, 128, 7000]⟩
abbrev S2x1x7000 : Shape := ⟨3, ![2, 1, 7000]⟩
abbrev S2x1x1 : Shape := ⟨3, ![2, 1, 1]⟩
abbrev S1024x128 : Shape := ⟨2, ![1024, 128]⟩
abbrev S1024 : Shape := ⟨1, ![1024]⟩
abbrev S1x128x7000 : Shape := ⟨3, ![1, 128, 7000]⟩
abbrev S1x1x7000 : Shape := ⟨3, ![1, 1, 7000]⟩
abbrev S1x1x1 : Shape := ⟨3, ![1, 1, 1]⟩
abbrev S128x7000 : Shape := ⟨2, ![128, 7000]⟩
abbrev S1x7000 : Shape := ⟨2, ![1, 7000]⟩
abbrev S1x1 : Shape := ⟨2, ![1, 1]⟩
abbrev S1024x1 : Shape := ⟨2, ![1024, 1]⟩
abbrev S1024x7000 : Shape := ⟨2, ![1024, 7000]⟩
abbrev S1x1024 : Shape := ⟨2, ![1, 1024]⟩
abbrev S1 : Shape := ⟨1, ![1]⟩
abbrev S7000 : Shape := ⟨1, ![7000]⟩
abbrev S_ : Shape := ⟨0, ![]⟩

abbrev nBuf : Space → Nat
  | .hbm => 9
  | .vmem => 16
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S7000x128, .f32⟩
  | .hbm, ⟨3, _⟩ => ⟨S2x128x7000, .f32⟩
  | .hbm, ⟨4, _⟩ => ⟨S2x1x7000, .f32⟩
  | .hbm, ⟨5, _⟩ => ⟨S2x1x1, .f32⟩
  | .hbm, ⟨6, _⟩ => ⟨S7000x128, .f32⟩
  | .hbm, ⟨7, _⟩ => ⟨S1x1, .f32⟩
  | .hbm, ⟨8, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024, .i32⟩
  | .local _ .vmem, ⟨3, _⟩ => ⟨S1024, .i32⟩
  | .local _ .vmem, ⟨4, _⟩ => ⟨S1x128x7000, .f32⟩
  | .local _ .vmem, ⟨5, _⟩ => ⟨S1x128x7000, .f32⟩
  | .local _ .vmem, ⟨6, _⟩ => ⟨S1x1x7000, .f32⟩
  | .local _ .vmem, ⟨7, _⟩ => ⟨S1x1x7000, .f32⟩
  | .local _ .vmem, ⟨8, _⟩ => ⟨S1x1x1, .f32⟩
  | .local _ .vmem, ⟨9, _⟩ => ⟨S1x1x1, .f32⟩
  | .local _ .vmem, ⟨10, _⟩ => ⟨S2x128x7000, .f32⟩
  | .local _ .vmem, ⟨11, _⟩ => ⟨S2x1x7000, .f32⟩
  | .local _ .vmem, ⟨12, _⟩ => ⟨S7000x128, .f32⟩
  | .local _ .vmem, ⟨13, _⟩ => ⟨S2x1x1, .f32⟩
  | .local _ .vmem, ⟨14, _⟩ => ⟨S7000x128, .f32⟩
  | .local _ .vmem, ⟨15, _⟩ => ⟨S1x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x7000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x7000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x128x7000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x1x7000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S7000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S7000x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x128x7000_S1x128x7000_0_0_0 : ∀ a, (![0, 0, 0] : Fin 3 → Nat) a + S1x128x7000.size a ≤ S1x128x7000.size a
  h_S1x128x7000 : 0 < S1x128x7000.numel
  shapeCasts_S1x128x7000_S128x7000 : S1x128x7000.ShapeCasts S128x7000
  shapeCasts_S128x7000_S1x128x7000 : S128x7000.ShapeCasts S1x128x7000
  inb_S1x1x7000_S1x1x7000_0_0_0 : ∀ a, (![0, 0, 0] : Fin 3 → Nat) a + S1x1x7000.size a ≤ S1x1x7000.size a
  h_S1x1x7000 : 0 < S1x1x7000.numel
  shapeCasts_S1x1x7000_S1x7000 : S1x1x7000.ShapeCasts S1x7000
  shapeCasts_S1x7000_S1x1x7000 : S1x7000.ShapeCasts S1x1x7000
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x128_S1024x128_0_0 : ∀ a, (![0, 0] : Fin 2 → Nat) a + S1024x128.size a ≤ S1024x128.size a
  h_S1024x128 : 0 < S1024x128.numel
  inb_S1024_S1024_0 : ∀ a, (![0] : Fin 1 → Nat) a + S1024.size a ≤ S1024.size a
  h_S1024 : 0 < S1024.numel
  shapeCasts_S1024_S1024x1 : S1024.ShapeCasts S1024x1
  iota_S1x7000_d1_w32 : S1x7000.Iotas .tc 32 [1]
  broadcasts_S1024x1_S1024x7000 : S1024x1.Broadcasts S1024x7000
  broadcasts_S1x7000_S1024x7000 : S1x7000.Broadcasts S1024x7000
  natLt_1_32 : 1 < 32
  bitsLt_bf16_f32 : FTy.bits .bf16 < FTy.bits .f32
  reduces_S1024x128_S1024 : S1024x128.Reduces [1] S1024
  reduces_S1024x1_S1 : S1024x1.Reduces [0] S1
  shapeCasts_S1_S1x1 : S1.ShapeCasts S1x1
  inb_S2x128x7000_S1x128x7000_0_0_0 : ∀ a, (![0, 0, 0] : Fin 3 → Nat) a + S1x128x7000.size a ≤ S2x128x7000.size a
  inb_S2x128x7000_S1x128x7000_1_0_0 : ∀ a, (![1, 0, 0] : Fin 3 → Nat) a + S1x128x7000.size a ≤ S2x128x7000.size a
  inb_S2x1x7000_S1x1x7000_0_0_0 : ∀ a, (![0, 0, 0] : Fin 3 → Nat) a + S1x1x7000.size a ≤ S2x1x7000.size a
  inb_S2x1x7000_S1x1x7000_1_0_0 : ∀ a, (![1, 0, 0] : Fin 3 → Nat) a + S1x1x7000.size a ≤ S2x1x7000.size a
  inb_S2x1x1_S1x1x1_0_0_0 : ∀ a, (![0, 0, 0] : Fin 3 → Nat) a + S1x1x1.size a ≤ S2x1x1.size a
  inb_S2x1x1_S1x1x1_1_0_0 : ∀ a, (![1, 0, 0] : Fin 3 → Nat) a + S1x1x1.size a ≤ S2x1x1.size a
  inb_S7000x128_S7000x128_0_0 : ∀ a, (![0, 0] : Fin 2 → Nat) a + S7000x128.size a ≤ S7000x128.size a
  h_S7000x128 : 0 < S7000x128.numel
  transposes_S7000x128_p1_0_S128x7000 : S7000x128.Transposes [1, 0] S128x7000
  broadcasts_S1x7000_S128x7000 : S1x7000.Broadcasts S128x7000
  transposes_S128x7000_p1_0_S7000x128 : S128x7000.Transposes [1, 0] S7000x128
  reduces_S128x7000_S7000 : S128x7000.Reduces [0] S7000
  shapeCasts_S7000_S1x7000 : S7000.ShapeCasts S1x7000
  reduces_S1x7000_S1 : S1x7000.Reduces [1] S1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x128_S1024x7000_S128x7000_0_0_1_1_n_n_wf : DotDims.WF S1024x128 S1024x7000 S128x7000 [0] [0] [1] [1] [] []
  dot_S1x1024_S1024x7000_S1x7000_1_0_0_1_n_n_wf : DotDims.WF S1x1024 S1024x7000 S1x7000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S524288x128.size a
  hwx0_0 : ∀ i : grid0.Coords, EltTy.bits .f32 = 32 ∨ (Rect.block (s := S524288x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S524288.size a
  hwx0_1 : ∀ i : grid0.Coords, EltTy.bits .i32 = 32 ∨ (Rect.block (s := S524288) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x7000.size a ≤ S2x128x7000.size a
  hwx0_2 : ∀ i : grid0.Coords, EltTy.bits .f32 = 32 ∨ (Rect.block (s := S2x128x7000) S1x128x7000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x7000.size a ≤ S2x1x7000.size a
  hwx0_3 : ∀ i : grid0.Coords, EltTy.bits .f32 = 32 ∨ (Rect.block (s := S2x1x7000) S1x1x7000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x128x7000.size a ≤ S2x128x7000.size a
  hwx1_0 : ∀ i : grid1.Coords, EltTy.bits .f32 = 32 ∨ (Rect.block (s := S2x128x7000) S2x128x7000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x7000.size a ≤ S2x1x7000.size a
  hwx1_1 : ∀ i : grid1.Coords, EltTy.bits .f32 = 32 ∨ (Rect.block (s := S2x1x7000) S2x1x7000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7000x128.size a ≤ S7000x128.size a
  hwx1_2 : ∀ i : grid1.Coords, EltTy.bits .f32 = 32 ∨ (Rect.block (s := S7000x128) S7000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x1x1.size a ≤ S2x1x1.size a
  hwx1_3 : ∀ i : grid1.Coords, EltTy.bits .f32 = 32 ∨ (Rect.block (s := S2x1x1) S2x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S7000x128.size a ≤ S7000x128.size a
  hwx1_4 : ∀ i : grid1.Coords, EltTy.bits .f32 = 32 ∨ (Rect.block (s := S7000x128) S7000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S1024x128_S1024x7000_S128x7000_0_0_1_1_n_n : DotDims S1024x128 S1024x7000 S128x7000 where
  lhsContracting := [0]
  rhsContracting := [0]
  lhsNonContracting := [1]
  rhsNonContracting := [1]
  lhsBatch := []
  rhsBatch := []
  wf := dot_S1024x128_S1024x7000_S128x7000_0_0_1_1_n_n_wf
def dot_S1x1024_S1024x7000_S1x7000_1_0_0_1_n_n : DotDims S1x1024 S1024x7000 S1x7000 where
  lhsContracting := [1]
  rhsContracting := [0]
  lhsNonContracting := [0]
  rhsNonContracting := [1]
  lhsBatch := []
  rhsBatch := []
  wf := dot_S1x1024_S1024x7000_S1x7000_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x7000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x7000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S2x128x7000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2x1x7000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S7000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S2x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S7000x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S524288x128 : Shape := ⟨2, ![524288, 128]⟩
abbrev S524288 : Shape := ⟨1, ![524288]⟩
abbrev S7000x128 : Shape := ⟨2, ![7000, 128]⟩
abbrev S_ : Shape := ⟨0, ![]⟩
abbrev S524288x1 : Shape := ⟨2, ![524288, 1]⟩
abbrev S7000 : Shape := ⟨1, ![7000]⟩

abbrev nBuf : Space → Nat
  | .hbm => 53
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S7000x128, .f32⟩
  | .hbm, ⟨3, _⟩ => ⟨S_, .i32⟩
  | .hbm, ⟨4, _⟩ => ⟨S524288, .i32⟩
  | .hbm, ⟨5, _⟩ => ⟨S524288, .i1⟩
  | .hbm, ⟨6, _⟩ => ⟨S_, .i32⟩
  | .hbm, ⟨7, _⟩ => ⟨S524288, .i32⟩
  | .hbm, ⟨8, _⟩ => ⟨S524288, .i32⟩
  | .hbm, ⟨9, _⟩ => ⟨S524288, .i32⟩
  | .hbm, ⟨10, _⟩ => ⟨S524288x1, .i32⟩
  | .hbm, ⟨11, _⟩ => ⟨S524288x128, .f32⟩
  | .hbm, ⟨12, _⟩ => ⟨S524288x128, .f32⟩
  | .hbm, ⟨13, _⟩ => ⟨S524288x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S524288, .f32⟩
  | .hbm, ⟨20, _⟩ => ⟨S_, .f32⟩
  | .hbm, ⟨21, _⟩ => ⟨S7000, .f32⟩
  | .hbm, ⟨22, _⟩ => ⟨S524288x1, .i32⟩
  | .hbm, ⟨23, _⟩ => ⟨S7000, .f32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S524288, .f32⟩
  | .hbm, ⟨33, _⟩ => ⟨S_, .f32⟩
  | .hbm, ⟨34, _⟩ => ⟨S524288, .f32⟩
  | .hbm, ⟨35, _⟩ => ⟨S524288, .f32⟩
  | .hbm, ⟨36, _⟩ => ⟨S_, .f32⟩
  | .hbm, ⟨37, _⟩ => ⟨S524288, .f32⟩
  | .hbm, ⟨38, _⟩ => ⟨S524288, .f32⟩
  | .hbm, ⟨39, _⟩ => ⟨S524288x128, .f32⟩
  | .hbm, ⟨40, _⟩ => ⟨S524288x1, .f32⟩
  | .hbm, ⟨41, _⟩ => ⟨S524288x128, .f32⟩
  | .hbm, ⟨42, _⟩ => ⟨S524288x128, .f32⟩
  | .hbm, ⟨43, _⟩ => ⟨S524288x128, .f32⟩
  | .hbm, ⟨44, _⟩ => ⟨S_, .i32⟩
  | .hbm, ⟨45, _⟩ => ⟨S524288, .i32⟩
  | .hbm, ⟨46, _⟩ => ⟨S524288, .i1⟩
  | .hbm, ⟨47, _⟩ => ⟨S_, .i32⟩
  | .hbm, ⟨48, _⟩ => ⟨S524288, .i32⟩
  | .hbm, ⟨49, _⟩ => ⟨S524288, .i32⟩
  | .hbm, ⟨50, _⟩ => ⟨S524288, .i32⟩
  | .hbm, ⟨51, _⟩ => ⟨S524288x1, .i32⟩
  | .hbm, ⟨52, _⟩ => ⟨S7000x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  reducesTo_S524288x128_S_d0_1 : S524288x128.ReducesTo [0, 1] S_
  h_S_ : 0 < S_.numel
  bcast_S_S7000 : S_.BroadcastsInDim S7000 (![] : Fin 0 → Fin S7000.rank)
  bcast_S524288x1_S524288x128_0_1 : S524288x1.BroadcastsInDim S524288x128 (![0, 1] : Fin 2 → Fin S524288x128.rank)
  gather_S7000x128_S524288x1_S524288x128_1_0_n_n_0_1_1128_wf : GatherDims.WF S7000x128 S524288x1 S524288x128 [1] [0] [] [0] [] 1 ![1, 128]
  scatter_S7000_S524288x1_S524288_n_0_0_1_wf : ScatterDims.WF S7000 S524288x1 S524288 [] [0] [0] 1
  gather_S7000_S524288x1_S524288_n_0_n_n_0_1_1_wf : GatherDims.WF S7000 S524288x1 S524288 [] [0] [] [0] [] 1 ![1]
  scatter_S7000x128_S524288x1_S524288x128_1_0_0_1_wf : ScatterDims.WF S7000x128 S524288x1 S524288x128 [1] [0] [0] 1

variable [Facts₀]

def gather_S7000x128_S524288x1_S524288x128_1_0_n_n_0_1_1128 : GatherDims S7000x128 S524288x1 S524288x128 where
  offsetDims := [1]
  collapsedSliceDims := [0]
  operandBatchingDims := []
  startIndicesBatchingDims := []
  startIndexMap := [0]
  indexVectorDim := 1
  sliceSizes := ![1, 128]
  wf := gather_S7000x128_S524288x1_S524288x128_1_0_n_n_0_1_1128_wf
def scatter_S7000_S524288x1_S524288_n_0_0_1 : ScatterDims S7000 S524288x1 S524288 where
  updateWindowDims := []
  insertedWindowDims := [0]
  scatterDimsToOperandDims := [0]
  indexVectorDim := 1
  wf := scatter_S7000_S524288x1_S524288_n_0_0_1_wf
def gather_S7000_S524288x1_S524288_n_0_n_n_0_1_1 : GatherDims S7000 S524288x1 S524288 where
  offsetDims := []
  collapsedSliceDims := [0]
  operandBatchingDims := []
  startIndicesBatchingDims := []
  startIndexMap := [0]
  indexVectorDim := 1
  sliceSizes := ![1]
  wf := gather_S7000_S524288x1_S524288_n_0_n_n_0_1_1_wf
def scatter_S7000x128_S524288x1_S524288x128_1_0_0_1 : ScatterDims S7000x128 S524288x1 S524288x128 where
  updateWindowDims := [1]
  insertedWindowDims := [0]
  scatterDimsToOperandDims := [0]
  indexVectorDim := 1
  wf := scatter_S7000x128_S524288x1_S524288x128_1_0_0_1_wf

class Facts : Prop extends Facts₀ where

variable [Facts]
-- ==== Proof.Spec.lean ====
/-
  The center-loss layer as whole-array functions of its three arguments: features f [524288, 128], labels lab
  [524288] (32-bit words) and centers z [7000, 128], on the extended reals.

  Two readings of the same layer are written down here, and nothing is proved about them in this file.

  * The one-hot reading. hot lab i k is 1 when row i carries the word of class k and 0 otherwise. The rows are cut
    into two halves of 262144 (coreRow c i is row i of half c); per half the class sums of the feature columns
    (segCore), the class counts (cntCore) and the sum of all squared features (sqCore). The two halves are added
    (segK, cntK, sqK), the updated centers are z + (1/2)/(1 + n_k) · (S_k − n_k · z_k) (newcK) and the loss is
    (1/2) · ((Σ f² − 2 · Σ_k S_k · z_k) + Σ_k n_k · |z_k|²) (lossK).
  * The gather-scatter reading, over a class function cls with lab i the word of cls i: the loss is
    (1/2) · Σ_i |f_i − z_{cls i}|² (lossR); the count of class k is the sum of ones over the rows of class k (cntR);
    row p moves its center by −(−(f_p − z_{cls p}) · (1/2)/(1 + n_{cls p})) (updR), and center k ends at z_k plus the
    sum of the moves of the rows of class k (newcR).

  The three literals 1/2, 1 and 2 are kept as the binary words both programs carry.
-/
import Idealize.ShloMosaic.PureOps.Ideal
import Idealize.ShloMosaic.Lib.ValueIdx

noncomputable section

open scoped BigOperators

namespace Cert.Hand

open Idealize.ShloMosaic Idealize.ShloMosaic.ValueIdx

/-- features [524288, 128], labels [524288], centers [7000, 128]; the per-half partial results [2, 128, 7000],
    [2, 1, 7000], [2, 1, 1]. -/
abbrev SF : Shape := ⟨2, ![524288, 128]⟩
abbrev SL : Shape := ⟨1, ![524288]⟩
abbrev SZ : Shape := ⟨2, ![7000, 128]⟩
abbrev SST : Shape := ⟨3, ![2, 128, 7000]⟩
abbrev SCN : Shape := ⟨3, ![2, 1, 7000]⟩
abbrev SSQ : Shape := ⟨3, ![2, 1, 1]⟩

/-- The words of 1/2, 1 and 2 in binary32, read on the extended reals. -/
abbrev half : EReal := Ideal.ofBits .f32 0x3F000000#32
abbrev one : EReal := Ideal.ofBits .f32 0x3F800000#32
abbrev two : EReal := Ideal.ofBits .f32 0x40000000#32

/-- Row i of half c of the 524288 rows. -/
def coreRow (c : Fin 2) (i : Fin 262144) : Fin 524288 :=
  ⟨262144 * c.val + i.val, by have := c.isLt; have := i.isLt; omega⟩

/-- The one-hot indicator: row i carries the word of class k. -/
def hot (lab : SL.Idx → BitVec 32) (i : Fin 524288) (k : Fin 7000) : EReal :=
  if lab (ix1 i) = BitVec.ofNat 32 k.val then 1 else 0

/-! ## The one-hot reading -/

/-- Column d of the features summed over the rows of class k, within half c. -/
def segCore (f : SF.Idx → EReal) (lab : SL.Idx → BitVec 32) (c : Fin 2) (d : Fin 128) (k : Fin 7000) : EReal :=
  ∑ i : Fin 262144, f (ix2 (coreRow c i) d) * hot lab (coreRow c i) k

/-- The number of rows of class k within half c. -/
def cntCore (lab : SL.Idx → BitVec 32) (c : Fin 2) (k : Fin 7000) : EReal :=
  ∑ i : Fin 262144, hot lab (coreRow c i) k

/-- The sum of the squared features of half c. -/
def sqCore (f : SF.Idx → EReal) (c : Fin 2) : EReal :=
  ∑ i : Fin 262144, ∑ d : Fin 128, f (ix2 (coreRow c i) d) * f (ix2 (coreRow c i) d)

/-- The two halves added. -/
def segK (f : SF.Idx → EReal) (lab : SL.Idx → BitVec 32) (d : Fin 128) (k : Fin 7000) : EReal :=
  segCore f lab 0 d k + segCore f lab 1 d k
def cntK (lab : SL.Idx → BitVec 32) (k : Fin 7000) : EReal := cntCore lab 0 k + cntCore lab 1 k
def sqK (f : SF.Idx → EReal) : EReal := sqCore f 0 + sqCore f 1

/-- The updated center k at column d: z + (1/2)/(1 + n_k) · (S_k − n_k · z). -/
def newcK (f : SF.Idx → EReal) (lab : SL.Idx → BitVec 32) (z : SZ.Idx → EReal) (k : Fin 7000) (d : Fin 128) : EReal :=
  z (ix2 k d) + Ideal.div half (one + cntK lab k) * (segK f lab d k - cntK lab k * z (ix2 k d))

/-- The loss: (1/2) · ((Σ f² − 2 · Σ_k Σ_d S_k,d · z_k,d) + Σ_k n_k · Σ_d z_k,d²). -/
def lossK (f : SF.Idx → EReal) (lab : SL.Idx → BitVec 32) (z : SZ.Idx → EReal) : EReal :=
  half * ((sqK f - two * ∑ k : Fin 7000, ∑ d : Fin 128, segK f lab d k * z (ix2 k d))
    + ∑ k : Fin 7000, cntK lab k * ∑ d : Fin 128, z (ix2 k d) * z (ix2 k d))

/-! ## The gather-scatter reading, over a class function -/

/-- The count of class k: a one for every row of class k. -/
def cntR (cls : Fin 524288 → Fin 7000) (k : Fin 7000) : EReal :=
  ∑ p ∈ Finset.univ.filter (fun p : Fin 524288 => cls p = k), one

/-- The loss: half the sum of the squared distances of every row to its class's center. -/
def lossR (f : SF.Idx → EReal) (z : SZ.Idx → EReal) (cls : Fin 524288 → Fin 7000) : EReal :=
  half * ∑ i : Fin 524288, ∑ d : Fin 128,
    (f (ix2 i d) - z (ix2 (cls i) d)) * (f (ix2 i d) - z (ix2 (cls i) d))

/-- What row p adds to its class's center at column d. -/
def updR (f : SF.Idx → EReal) (z : SZ.Idx → EReal) (cls : Fin 524288 → Fin 7000) (p : Fin 524288) (d : Fin 128) : EReal :=
  -(-(f (ix2 p d) - z (ix2 (cls p) d)) * Ideal.div half (one + cntR cls (cls p)))

/-- The updated center k at column d: the center plus what the rows of class k add. -/
def newcR (f : SF.Idx → EReal) (z : SZ.Idx → EReal) (cls : Fin 524288 → Fin 7000) (k : Fin 7000) (d : Fin 128) : EReal :=
  z (ix2 k d) + ∑ p ∈ Finset.univ.filter (fun p : Fin 524288 => cls p = k), updR f z cls p d

end Cert.Hand

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.R0Body.lean ====
/-
  What the first launch's body leaves in its three result blocks at a grid point, as the body's arithmetic applied to
  the point's input blocks: at the first point of a half over blocks it has just set to zero, at every other point over
  what the point before left.
-/
import proofs.«404958_j42099269436115_3_alg».proof.Proof.Gen.KernelIdeal.Frame
import Idealize.ShloMosaic.Lib.Pipeline.Value

set_option maxRecDepth 16384

noncomputable section

namespace Cert.Hand.R0

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- The feature block [1024, 128] and the label block [1024] of grid point t. -/
abbrev fblk (c : Dev nD) (t : Fin cfg0.N) : Vec F S1024x128 .f32 := iblk0 V c 0 t
abbrev lblk (c : Dev nD) (t : Fin cfg0.N) : Vec F S1024 .i32 := iblk0 V c 1 t

/-! ## Offsets that are all zero

Every load and store of the body goes through the rectangle that starts at the origin of its buffer and has the
buffer's own extents, so it reads or replaces the whole buffer. The origin is written as a literal vector of zeros,
one per axis; these say it is the constant zero function. -/

private theorem origin1 : (![0] : Fin 1 → Nat) = fun _ => 0 := funext fun a => by fin_cases a <;> rfl
private theorem origin2 : (![0, 0] : Fin 2 → Nat) = fun _ => 0 := funext fun a => by fin_cases a <;> rfl
private theorem origin3 : (![0, 0, 0] : Fin 3 → Nat) = fun _ => 0 := funext fun a => by fin_cases a <;> rfl

/-! ## A point that is not the first of its half

Each result block is replaced once, by the update computed from the two input blocks and from the block's own
contents before the point. A whole-buffer load of a buffer holding `X` is `X`, and one whole-buffer store leaves
exactly what was stored. -/

/-- The per-class column sums: the block before the point plus the one-hot product of this point's rows. -/
private theorem later_sums (c : Dev nD) (i : grid0.Coords) (a2 : Memref sig .tc .vmem S1024x128 .f32) (h2 : a2.IsWhole)
    (a3 : Memref sig .tc .vmem S1024 .i32) (h3 : a3.IsWhole) (a4 : Memref sig .tc .vmem S1x128x7000 .f32) (h4 : a4.IsWhole)
    (a5 : Memref sig .tc .vmem S1x1x7000 .f32) (h5 : a5.IsWhole) (a6 : Memref sig .tc .vmem S1x1x1 .f32) (h6 : a6.IsWhole)
    (hc : ¬cond0_0 i) (x0 : Vec F S1024x128 .f32) (x1 : Vec F S1024 .i32) (xo2 : Vec F S1x128x7000 .f32)
    (xo3 : Vec F S1x1x7000 .f32) (xo4 : Vec F S1x1x1 .f32) :
    out0_B_2 c i a2 h2 a3 h3 a4 h4 a5 h5 a6 h6 hc x0 x1 xo2 xo3 xo4 = k0_pay7 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero origin3]
  simp only [View.readAt_eq_ld, h2.read_unread, h3.read_unread, h4.read_unread,
    View.ld_unit_zero (S := S1024x128) origin2, View.ld_unit_zero (S := S1024) origin1,
    View.ld_unit_zero (S := S1x128x7000) origin3]

/-- The per-class row counts: the block before the point plus the column sums of this point's one-hot matrix. -/
private theorem later_counts (c : Dev nD) (i : grid0.Coords) (a2 : Memref sig .tc .vmem S1024x128 .f32) (h2 : a2.IsWhole)
    (a3 : Memref sig .tc .vmem S1024 .i32) (h3 : a3.IsWhole) (a4 : Memref sig .tc .vmem S1x128x7000 .f32) (h4 : a4.IsWhole)
    (a5 : Memref sig .tc .vmem S1x1x7000 .f32) (h5 : a5.IsWhole) (a6 : Memref sig .tc .vmem S1x1x1 .f32) (h6 : a6.IsWhole)
    (hc : ¬cond0_0 i) (x0 : Vec F S1024x128 .f32) (x1 : Vec F S1024 .i32) (xo2 : Vec F S1x128x7000 .f32)
    (xo3 : Vec F S1x1x7000 .f32) (xo4 : Vec F S1x1x1 .f32) :
    out0_B_3 c i a2 h2 a3 h3 a4 h4 a5 h5 a6 h6 hc x0 x1 xo2 xo3 xo4 = k0_pay8 x1 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero origin3]
  simp only [View.readAt_eq_ld, h3.read_unread, h5.read_unread,
    View.ld_unit_zero (S := S1024) origin1, View.ld_unit_zero (S := S1x1x7000) origin3]

/-- The sum of squares: the entry before the point plus the sum of the squares of this point's feature block. -/
private theorem later_squares (c : Dev nD) (i : grid0.Coords) (a2 : Memref sig .tc .vmem S1024x128 .f32) (h2 : a2.IsWhole)
    (a3 : Memref sig .tc .vmem S1024 .i32) (h3 : a3.IsWhole) (a4 : Memref sig .tc .vmem S1x128x7000 .f32) (h4 : a4.IsWhole)
    (a5 : Memref sig .tc .vmem S1x1x7000 .f32) (h5 : a5.IsWhole) (a6 : Memref sig .tc .vmem S1x1x1 .f32) (h6 : a6.IsWhole)
    (hc : ¬cond0_0 i) (x0 : Vec F S1024x128 .f32) (x1 : Vec F S1024 .i32) (xo2 : Vec F S1x128x7000 .f32)
    (xo3 : Vec F S1x1x7000 .f32) (xo4 : Vec F S1x1x1 .f32) :
    out0_B_4 c i a2 h2 a3 h3 a4 h4 a5 h5 a6 h6 hc x0 x1 xo2 xo3 xo4 = k0_pay1 (k0_pay6 x0) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero origin3]
  simp only [View.readAt_eq_ld, h2.read_unread, h6.read_unread,
    View.ld_unit_zero (S := S1024x128) origin2, View.ld_unit_zero (S := S1x1x1) origin3]

/-! ## The first point of a half

Each result block is written twice: first the zero block, then the update. The update is computed from a load of the
block made between the two stores, so it reads the zero block just stored; and the second store, covering the whole
buffer, decides what the buffer holds afterwards, whatever the first one wrote. -/

/-- The per-class column sums start from the zero block. -/
private theorem first_sums (c : Dev nD) (i : grid0.Coords) (a2 : Memref sig .tc .vmem S1024x128 .f32) (h2 : a2.IsWhole)
    (a3 : Memref sig .tc .vmem S1024 .i32) (h3 : a3.IsWhole) (a4 : Memref sig .tc .vmem S1x128x7000 .f32) (h4 : a4.IsWhole)
    (a5 : Memref sig .tc .vmem S1x1x7000 .f32) (h5 : a5.IsWhole) (a6 : Memref sig .tc .vmem S1x1x1 .f32) (h6 : a6.IsWhole)
    (hc : cond0_0 i) (x0 : Vec F S1024x128 .f32) (x1 : Vec F S1024 .i32) :
    out0_A_2 c i a2 h2 a3 h3 a4 h4 a5 h5 a6 h6 hc x0 x1 = k0_pay7 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x128x7000) origin3, View.readCov_unit_zero (S := S1x128x7000) _ origin3]
  simp only [View.readAt_eq_ld, h2.read_unread, h3.read_unread,
    View.ld_unit_zero (S := S1024x128) origin2, View.ld_unit_zero (S := S1024) origin1]

/-- The per-class row counts start from the zero block. -/
private theorem first_counts (c : Dev nD) (i : grid0.Coords) (a2 : Memref sig .tc .vmem S1024x128 .f32) (h2 : a2.IsWhole)
    (a3 : Memref sig .tc .vmem S1024 .i32) (h3 : a3.IsWhole) (a4 : Memref sig .tc .vmem S1x128x7000 .f32) (h4 : a4.IsWhole)
    (a5 : Memref sig .tc .vmem S1x1x7000 .f32) (h5 : a5.IsWhole) (a6 : Memref sig .tc .vmem S1x1x1 .f32) (h6 : a6.IsWhole)
    (hc : cond0_0 i) (x0 : Vec F S1024x128 .f32) (x1 : Vec F S1024 .i32) :
    out0_A_3 c i a2 h2 a3 h3 a4 h4 a5 h5 a6 h6 hc x0 x1 = k0_pay8 x1 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x7000) origin3, View.readCov_unit_zero (S := S1x1x7000) _ origin3]
  simp only [View.readAt_eq_ld, h3.read_unread, View.ld_unit_zero (S := S1024) origin1]

/-- The sum of squares starts from the zero entry. -/
private theorem first_squares (c : Dev nD) (i : grid0.Coords) (a2 : Memref sig .tc .vmem S1024x128 .f32) (h2 : a2.IsWhole)
    (a3 : Memref sig .tc .vmem S1024 .i32) (h3 : a3.IsWhole) (a4 : Memref sig .tc .vmem S1x128x7000 .f32) (h4 : a4.IsWhole)
    (a5 : Memref sig .tc .vmem S1x1x7000 .f32) (h5 : a5.IsWhole) (a6 : Memref sig .tc .vmem S1x1x1 .f32) (h6 : a6.IsWhole)
    (hc : cond0_0 i) (x0 : Vec F S1024x128 .f32) (x1 : Vec F S1024 .i32) :
    out0_A_4 c i a2 h2 a3 h3 a4 h4 a5 h5 a6 h6 hc x0 x1 = k0_pay1 (k0_pay6 x0) (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x1) origin3, View.readCov_unit_zero (S := S1x1x1) _ origin3]
  simp only [View.readAt_eq_ld, h2.read_unread, View.ld_unit_zero (S := S1024x128) origin2]

/-- At the first point of a half (t ≡ 0 mod 256) the three blocks are reset and then updated once. -/
theorem outs_first (c : Dev nD) (t : Fin cfg0.N) (h0 : t.val % 256 = 0) :
    outsAt0 V c t.val t.isLt
      = (k0_pay7 (fblk V c t) (lblk V c t) (k0_pay2 (F := F)), k0_pay8 (lblk V c t) (k0_pay3 (F := F)),
          k0_pay1 (k0_pay6 (fblk V c t)) (k0_pay4 (F := F))) := by
  refine (outsAt0_A V c t h0).trans ?_
  exact congrArg₂ Prod.mk
    (first_sums c (grid0.coords t) (ms0_0 t) (hs0_0 t) (ms0_1 t) (hs0_1 t) (ms0_2 t) (hs0_2 t) (ms0_3 t) (hs0_3 t)
      (ms0_4 t) (hs0_4 t) ((hcond0_0 t).mpr h0) (fblk V c t) (lblk V c t))
    (congrArg₂ Prod.mk
      (first_counts c (grid0.coords t) (ms0_0 t) (hs0_0 t) (ms0_1 t) (hs0_1 t) (ms0_2 t) (hs0_2 t) (ms0_3 t) (hs0_3 t)
        (ms0_4 t) (hs0_4 t) ((hcond0_0 t).mpr h0) (fblk V c t) (lblk V c t))
      (first_squares c (grid0.coords t) (ms0_0 t) (hs0_0 t) (ms0_1 t) (hs0_1 t) (ms0_2 t) (hs0_2 t) (ms0_3 t) (hs0_3 t)
        (ms0_4 t) (hs0_4 t) ((hcond0_0 t).mpr h0) (fblk V c t) (lblk V c t)))

/-- At every other point they are updated over what the point before left. -/
theorem outs_next (c : Dev nD) (t : Fin cfg0.N) (h0 : ¬t.val % 256 = 0) :
    outsAt0 V c t.val t.isLt
      = (k0_pay7 (fblk V c t) (lblk V c t) (outsAt0 V c (t.val - 1) (Nat.lt_of_le_of_lt (Nat.sub_le _ _) t.isLt)).1,
          k0_pay8 (lblk V c t) (outsAt0 V c (t.val - 1) (Nat.lt_of_le_of_lt (Nat.sub_le _ _) t.isLt)).2.1,
          k0_pay1 (k0_pay6 (fblk V c t)) (outsAt0 V c (t.val - 1) (Nat.lt_of_le_of_lt (Nat.sub_le _ _) t.isLt)).2.2) := by
  refine (outsAt0_B V c t h0).trans ?_
  exact congrArg₂ Prod.mk
    (later_sums c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (fblk V c t) (lblk V c t)
      (outsAt0 V c (t.val - 1) (Nat.lt_of_le_of_lt (Nat.sub_le _ _) t.isLt)).1
      (outsAt0 V c (t.val - 1) (Nat.lt_of_le_of_lt (Nat.sub_le _ _) t.isLt)).2.1
      (outsAt0 V c (t.val - 1) (Nat.lt_of_le_of_lt (Nat.sub_le _ _) t.isLt)).2.2)
    (congrArg₂ Prod.mk
      (later_counts c (grid0.coords t) (ms0_0 t) (hs0_0 t) (ms0_1 t) (hs0_1 t) (ms0_2 t) (hs0_2 t) (ms0_3 t) (hs0_3 t)
        (ms0_4 t) (hs0_4 t) (fun h => h0 ((hcond0_0 t).mp h)) (fblk V c t) (lblk V c t)
        (outsAt0 V c (t.val - 1) (Nat.lt_of_le_of_lt (Nat.sub_le _ _) t.isLt)).1
        (outsAt0 V c (t.val - 1) (Nat.lt_of_le_of_lt (Nat.sub_le _ _) t.isLt)).2.1
        (outsAt0 V c (t.val - 1) (Nat.lt_of_le_of_lt (Nat.sub_le _ _) t.isLt)).2.2)
      (later_squares c (grid0.coords t) (ms0_0 t) (hs0_0 t) (ms0_1 t) (hs0_1 t) (ms0_2 t) (hs0_2 t) (ms0_3 t) (hs0_3 t)
        (ms0_4 t) (hs0_4 t) (fun h => h0 ((hcond0_0 t).mp h)) (fblk V c t) (lblk V c t)
        (outsAt0 V c (t.val - 1) (Nat.lt_of_le_of_lt (Nat.sub_le _ _) t.isLt)).1
        (outsAt0 V c (t.val - 1) (Nat.lt_of_le_of_lt (Nat.sub_le _ _) t.isLt)).2.1
        (outsAt0 V c (t.val - 1) (Nat.lt_of_le_of_lt (Nat.sub_le _ _) t.isLt)).2.2))

end Cert.Hand.R0

end
-- ==== Proof.R0Payload.lean ====
/-
  The arithmetic of the first launch's body read at an index, on the extended reals: a block of 1024 rows adds, to a
  running [1, 128, 7000] block, column d of its features summed over its rows of class k; to a running [1, 1, 7000]
  block the number of its rows of class k; to a running [1, 1, 1] block the sum of its squared features.
-/
import proofs.«404958_j42099269436115_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.Hand.R0

open Cert.KernelIdeal Cert.KernelIdeal.Gen
open Idealize.ShloMosaic Idealize.ShloMosaic.TcCoe Idealize.ShloMosaic.ValueIdx

/-- Row r of a label block carries the word of class k: 1, else 0. -/
def hotBlk (x1 : Vec Ideal S1024 .i32) (r : Fin 1024) (k : Fin 7000) : EReal :=
  if x1 (ix1 r) = BitVec.ofNat 32 k.val then 1 else 0

/-! ## Layout steps the kernel uses: a vector stood up as a column, and a column spread over the lanes -/

/-- A vector [a] viewed as a column [a, 1] reads, at (i, u), the vector at i. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column at p. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot block -/

private theorem bit_one_toInt : ((1#1 : BitVec 1).setWidth 32).toInt = 1 := by decide
private theorem bit_zero_toInt : ((0#1 : BitVec 1).setWidth 32).toInt = 0 := by decide

/-- The label column spread over the lanes reads the row's label. -/
private theorem labels_apply (x1 : Vec Ideal S1024 .i32) (r : Fin 1024) (k : Fin 7000) :
    broadcastTo S1024x7000 (shapeCast S1024x1 x1 shapeCasts_S1024_S1024x1) broadcasts_S1024x1_S1024x7000 (ix2 r k)
      = x1 (ix1 r) :=
  (broadcastTo_col_apply _ _ r k).trans (shapeCast_col_apply x1 _ r 0)

/-- The lane counter spread over the rows reads the lane's number as a word. -/
private theorem lanes_apply (r : Fin 1024) (k : Fin 7000) :
    broadcastTo S1024x7000 (iota .tc S1x7000 32 [1] iota_S1x7000_d1_w32) broadcasts_S1x7000_S1024x7000 (ix2 r k)
      = BitVec.ofNat 32 k.val :=
  (broadcastTo_1b_ab_apply _ _ r k).trans (iota_single_apply .tc S1x7000 32 1 iota_S1x7000_d1_w32 (ix2 (0 : Fin 1) k))

/-- The one-hot block at (r, k): the comparison's bit, widened, read signed, as a real; the narrowing to sixteen bits
    changes nothing on the extended reals. -/
private theorem pay5_apply (x1 : Vec Ideal S1024 .i32) (r : Fin 1024) (k : Fin 7000) :
    (k0_pay5 (F := Ideal) x1 : S1024x7000.Idx → EReal) (ix2 r k) = hotBlk x1 r k := by
  unfold k0_pay5 hotBlk
  show ((((IntOp.cmpi .eq
      (broadcastTo S1024x7000 (shapeCast S1024x1 x1 shapeCasts_S1024_S1024x1) broadcasts_S1024x1_S1024x7000 (ix2 r k))
      (broadcastTo S1024x7000 (iota .tc S1x7000 32 [1] iota_S1x7000_d1_w32) broadcasts_S1x7000_S1024x7000 (ix2 r k))).setWidth 32).toInt : ℝ) : EReal) = _
  rw [labels_apply, lanes_apply]
  by_cases hx : x1 (ix1 r) = BitVec.ofNat 32 k.val
  · rw [if_pos hx, IntOp.cmpi_eq.mpr hx, bit_one_toInt]; norm_num
  · rw [if_neg hx, eq_zero_of_ne_one (fun h => hx (IntOp.cmpi_eq.mp h)), bit_zero_toInt]; norm_num

/-! ## The two products' operand indices

The first product contracts the row axis of both operands ([1024, 128] and [1024, 7000] into [128, 7000]); the second
contracts the lane axis of a [1, 1024] row with the row axis of the one-hot ([1, 7000]). Each operand index is read
axis by axis, at the literal axes. -/

private theorem lhsA_0 (j : S128x7000.Idx) (q : dot_S1024x128_S1024x7000_S128x7000_0_0_1_1_n_n.contr.Idx) :
    (dot_S1024x128_S1024x7000_S128x7000_0_0_1_1_n_n.lhsIdx j q 0).val = (q ⟨0, by decide⟩).val :=
  DotDims.lhsIdx_val_of_single _ rfl j q
private theorem lhsA_1 (j : S128x7000.Idx) (q : dot_S1024x128_S1024x7000_S128x7000_0_0_1_1_n_n.contr.Idx) :
    (dot_S1024x128_S1024x7000_S128x7000_0_0_1_1_n_n.lhsIdx j q 1).val = (j 0).val := rfl
private theorem rhsA_0 (j : S128x7000.Idx) (q : dot_S1024x128_S1024x7000_S128x7000_0_0_1_1_n_n.contr.Idx) :
    (dot_S1024x128_S1024x7000_S128x7000_0_0_1_1_n_n.rhsIdx j q 0).val = (q ⟨0, by decide⟩).val :=
  DotDims.rhsIdx_val_of_single _ rfl j q
private theorem rhsA_1 (j : S128x7000.Idx) (q : dot_S1024x128_S1024x7000_S128x7000_0_0_1_1_n_n.contr.Idx) :
    (dot_S1024x128_S1024x7000_S128x7000_0_0_1_1_n_n.rhsIdx j q 1).val = (j 1).val := rfl

private theorem rhsB_0 (j : S1x7000.Idx) (q : dot_S1x1024_S1024x7000_S1x7000_1_0_0_1_n_n.contr.Idx) :
    (dot_S1x1024_S1024x7000_S1x7000_1_0_0_1_n_n.rhsIdx j q 0).val = (q ⟨0, by decide⟩).val :=
  DotDims.rhsIdx_val_of_single _ rfl j q
private theorem rhsB_1 (j : S1x7000.Idx) (q : dot_S1x1024_S1024x7000_S1x7000_1_0_0_1_n_n.contr.Idx) :
    (dot_S1x1024_S1024x7000_S1x7000_1_0_0_1_n_n.rhsIdx j q 1).val = (j 1).val := rfl

/-- The first product's left operand at contraction position r: row r, column d. -/
private theorem lhsA_idx (d : Fin 128) (k : Fin 7000) (r : Fin 1024) :
    dot_S1024x128_S1024x7000_S128x7000_0_0_1_1_n_n.lhsIdx (ix2 d k)
        ((contrEquiv1 dot_S1024x128_S1024x7000_S128x7000_0_0_1_1_n_n 1024 rfl rfl).symm r) = ix2 r d := by
  funext a; refine Fin.ext ?_
  match a with
  | ⟨0, _⟩ => exact (lhsA_0 _ _).trans (contrEquiv1_symm_val _ 1024 rfl rfl r)
  | ⟨1, _⟩ => exact lhsA_1 _ _

/-- The first product's right operand at contraction position r: row r, lane k. -/
private theorem rhsA_idx (d : Fin 128) (k : Fin 7000) (r : Fin 1024) :
    dot_S1024x128_S1024x7000_S128x7000_0_0_1_1_n_n.rhsIdx (ix2 d k)
        ((contrEquiv1 dot_S1024x128_S1024x7000_S128x7000_0_0_1_1_n_n 1024 rfl rfl).symm r) = ix2 r k := by
  funext a; refine Fin.ext ?_
  match a with
  | ⟨0, _⟩ => exact (rhsA_0 _ _).trans (contrEquiv1_symm_val _ 1024 rfl rfl r)
  | ⟨1, _⟩ => exact rhsA_1 _ _

/-- The second product's right operand at contraction position r: row r, lane k. -/
private theorem rhsB_idx (u : Fin 1) (k : Fin 7000) (r : Fin 1024) :
    dot_S1x1024_S1024x7000_S1x7000_1_0_0_1_n_n.rhsIdx (ix2 u k)
        ((contrEquiv1 dot_S1x1024_S1024x7000_S1x7000_1_0_0_1_n_n 1024 rfl rfl).symm r) = ix2 r k := by
  funext a; refine Fin.ext ?_
  match a with
  | ⟨0, _⟩ => exact (rhsB_0 _ _).trans (contrEquiv1_symm_val _ 1024 rfl rfl r)
  | ⟨1, _⟩ => exact rhsB_1 _ _

/-! ## The two products into the zero splat, read at an index -/

/-- The first product at (d, k): column d of the block's features summed over the rows whose label is class k. -/
private theorem segProd_apply (x0 : Vec Ideal S1024x128 .f32) (x1 : Vec Ideal S1024 .i32) (d : Fin 128) (k : Fin 7000) :
    matmul (F := Ideal) dot_S1024x128_S1024x7000_S128x7000_0_0_1_1_n_n none (truncf .bf16 x0 bitsLt_bf16_f32) (k0_pay5 x1)
        (constant S128x7000 .f32 0x00000000#32) (ix2 d k)
      = ∑ r : Fin 1024, x0 (ix2 r d) * hotBlk x1 r k := by
  refine (Ideal.matmul_constant_zero_apply dot_S1024x128_S1024x7000_S128x7000_0_0_1_1_n_n none _ _ (ix2 d k)).trans ?_
  rw [← Equiv.sum_comp (contrEquiv1 dot_S1024x128_S1024x7000_S128x7000_0_0_1_1_n_n 1024 rfl rfl).symm]
  refine Finset.sum_congr rfl fun r _ => ?_
  rw [lhsA_idx, rhsA_idx, pay5_apply]
  rfl

/-- The second product at (0, k): the number of the block's rows whose label is class k. -/
private theorem cntProd_apply (x1 : Vec Ideal S1024 .i32) (u : Fin 1) (k : Fin 7000) :
    matmul (F := Ideal) dot_S1x1024_S1024x7000_S1x7000_1_0_0_1_n_n none
        (broadcast S1x1024 (Scalar.ofBits (F := Ideal) .bf16 0x3F80#16)) (k0_pay5 x1)
        (constant S1x7000 .f32 0x00000000#32) (ix2 u k)
      = ∑ r : Fin 1024, hotBlk x1 r k := by
  refine (Ideal.matmul_constant_zero_apply dot_S1x1024_S1024x7000_S1x7000_1_0_0_1_n_n none _ _ (ix2 u k)).trans ?_
  rw [← Equiv.sum_comp (contrEquiv1 dot_S1x1024_S1024x7000_S1x7000_1_0_0_1_n_n 1024 rfl rfl).symm]
  refine Finset.sum_congr rfl fun r _ => ?_
  rw [rhsB_idx, pay5_apply, broadcast_apply]
  show Ideal.ofBits .bf16 0x3F80#16 * _ = _
  rw [Ideal.ofBits_one_bf16, one_mul]

/-! ## The two lane sums -/

/-- The squares of row r summed over the 128 columns. -/
private theorem rowSq_apply (x0 : Vec Ideal S1024x128 .f32) (r : Fin 1024) :
    multiReduction (F := Ideal) .add [1] S1024 (mulf x0 x0) 0x00000000#32 reduces_S1024x128_S1024 (.inl rfl) rfl (ix1 r)
      = ∑ d : Fin 128, x0 (ix2 r d) * x0 (ix2 r d) := by
  refine (Ideal.multiReduction_add_single (mulf x0 x0) 0x00000000#32 reduces_S1024x128_S1024 (.inl rfl) rfl (ix1 r)).trans ?_
  refine Finset.sum_congr rfl fun d _ => ?_
  have hl : reduces_S1024x128_S1024.lift (ix1 r) d = ix2 r d := by
    funext a; refine Fin.ext ?_
    match a with
    | ⟨0, _⟩ => rfl
    | ⟨1, _⟩ => rfl
  rw [hl]
  rfl

/-- A column [1024, 1] summed over its rows. -/
private theorem colSum_apply (v : FVec Ideal S1024 .f32) :
    multiReduction (F := Ideal) .add [0] S1 (shapeCast S1024x1 v shapeCasts_S1024_S1024x1) 0x00000000#32 reduces_S1024x1_S1 (.inl rfl) rfl
        (ix1 (0 : Fin 1))
      = ∑ r : Fin 1024, v (ix1 r) := by
  refine (Ideal.multiReduction_add_single (shapeCast S1024x1 v shapeCasts_S1024_S1024x1) 0x00000000#32 reduces_S1024x1_S1 (.inl rfl) rfl
    (ix1 (0 : Fin 1))).trans ?_
  refine Finset.sum_congr rfl fun r _ => ?_
  have hl : reduces_S1024x1_S1.lift (ix1 (0 : Fin 1)) r = ix2 r (0 : Fin 1) := by
    funext a; refine Fin.ext ?_
    match a with
    | ⟨0, _⟩ => rfl
    | ⟨1, _⟩ => rfl
  rw [hl]
  exact shapeCast_col_apply v _ r 0

/-- The block's squared features summed: first along the columns, then along the rows. -/
private theorem pay6_apply (x0 : Vec Ideal S1024x128 .f32) :
    (k0_pay6 (F := Ideal) x0 : S1x1.Idx → EReal) (ix2 (0 : Fin 1) (0 : Fin 1))
      = ∑ r : Fin 1024, ∑ d : Fin 128, x0 (ix2 r d) * x0 (ix2 r d) := by
  unfold k0_pay6
  refine (shapeCast_a_1a_apply _ _ (0 : Fin 1) (0 : Fin 1)).trans ?_
  refine (colSum_apply _).trans ?_
  exact Finset.sum_congr rfl fun r _ => rowSq_apply x0 r

/-! ## The payloads at an index -/

theorem pay2_apply (j : S1x128x7000.Idx) : (k0_pay2 (F := Ideal) : S1x128x7000.Idx → EReal) j = 0 := by
  show Ideal.ofBits .f32 0x00000000#32 = 0
  exact Ideal.ofBits_zero_f32
theorem pay3_apply (j : S1x1x7000.Idx) : (k0_pay3 (F := Ideal) : S1x1x7000.Idx → EReal) j = 0 := by
  show Ideal.ofBits .f32 0x00000000#32 = 0
  exact Ideal.ofBits_zero_f32
theorem pay4_apply (j : S1x1x1.Idx) : (k0_pay4 (F := Ideal) : S1x1x1.Idx → EReal) j = 0 := by
  show Ideal.ofBits .f32 0x00000000#32 = 0
  exact Ideal.ofBits_zero_f32

theorem pay7_apply (x0 : Vec Ideal S1024x128 .f32) (x1 : Vec Ideal S1024 .i32) (acc : Vec Ideal S1x128x7000 .f32)
    (d : Fin 128) (k : Fin 7000) :
    (k0_pay7 (F := Ideal) x0 x1 acc : S1x128x7000.Idx → EReal) (ix3 0 d k)
      = acc (ix3 0 d k) + ∑ r : Fin 1024, x0 (ix2 r d) * hotBlk x1 r k := by
  unfold k0_pay7
  refine (shapeCast_ab_1ab_apply _ _ (0 : Fin 1) d k).trans ?_
  refine (addf_apply _ _ (ix2 d k)).trans ?_
  exact congrArg₂ (· + ·) (shapeCast_1ab_ab_apply acc _ d k) (segProd_apply x0 x1 d k)

theorem pay8_apply (x1 : Vec Ideal S1024 .i32) (acc : Vec Ideal S1x1x7000 .f32) (k : Fin 7000) :
    (k0_pay8 (F := Ideal) x1 acc : S1x1x7000.Idx → EReal) (ix3 0 0 k)
      = acc (ix3 0 0 k) + ∑ r : Fin 1024, hotBlk x1 r k := by
  unfold k0_pay8
  refine (shapeCast_ab_1ab_apply _ _ (0 : Fin 1) (0 : Fin 1) k).trans ?_
  refine (addf_apply _ _ (ix2 (0 : Fin 1) k)).trans ?_
  exact congrArg₂ (· + ·) (shapeCast_1ab_ab_apply acc _ (0 : Fin 1) k) (cntProd_apply x1 0 k)

theorem pay1_apply (x0 : Vec Ideal S1024x128 .f32) (acc : Vec Ideal S1x1x1 .f32) :
    (k0_pay1 (F := Ideal) (k0_pay6 x0) acc : S1x1x1.Idx → EReal) (ix3 0 0 0)
      = acc (ix3 0 0 0) + ∑ r : Fin 1024, ∑ d : Fin 128, x0 (ix2 r d) * x0 (ix2 r d) := by
  unfold k0_pay1
  refine (shapeCast_ab_1ab_apply _ _ (0 : Fin 1) (0 : Fin 1) (0 : Fin 1)).trans ?_
  refine (addf_apply _ _ (ix2 (0 : Fin 1) (0 : Fin 1))).trans ?_
  exact congrArg₂ (· + ·) (shapeCast_1ab_ab_apply acc _ (0 : Fin 1) (0 : Fin 1)) (pay6_apply x0)

end Cert.Hand.R0

end
-- ==== Proof.R0Value.lean ====
/-
  What the first launch leaves in its three result arrays.
-/
import proofs.«404958_j42099269436115_3_alg».proof.Proof.Gen.KernelIdeal.Frame
import proofs.«404958_j42099269436115_3_alg».proof.Proof.Spec
import proofs.«404958_j42099269436115_3_alg».proof.Proof.LibTile
import proofs.«404958_j42099269436115_3_alg».proof.Proof.R0Body
import proofs.«404958_j42099269436115_3_alg».proof.Proof.R0Payload
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.Hand.R0

open Cert.KernelIdeal Cert.KernelIdeal.Gen Cert.Hand
open Idealize.ShloMosaic Idealize.ShloMosaic.TcCoe Idealize.ShloMosaic.ValueIdx Idealize.SL.Sem

variable (V : (c : Dev nD) → (b : Ref sig .tc) → Buf (Elt Ideal) ((c : Thread nD τ).loc b))

/-- The features and the labels as the first launch finds them. -/
abbrev farr (c : Dev nD) : Vec Ideal S524288x128 .f32 := V c main_arg0
abbrev larr (c : Dev nD) : Vec Ideal S524288 .i32 := V c main_arg1

/-! ## Where the blocks sit, and the fold over a half -/

/-- Where the windows sit at a grid point: the feature and label blocks at block row t, the three result blocks at
    block t / 256 of the leading axis and block 0 of the others. -/
private theorem idx_facts : ∀ t : Fin cfg0.N,
    win0_0.index t (0 : Fin 2) = t.val ∧ win0_0.index t (1 : Fin 2) = 0
    ∧ win0_1.index t (0 : Fin 1) = t.val
    ∧ win0_2.index t (0 : Fin 3) = t.val / 256 ∧ win0_2.index t (1 : Fin 3) = 0 ∧ win0_2.index t (2 : Fin 3) = 0
    ∧ win0_3.index t (0 : Fin 3) = t.val / 256 ∧ win0_3.index t (1 : Fin 3) = 0 ∧ win0_3.index t (2 : Fin 3) = 0
    ∧ win0_4.index t (0 : Fin 3) = t.val / 256 ∧ win0_4.index t (1 : Fin 3) = 0 ∧ win0_4.index t (2 : Fin 3) = 0 :=
  (by decide +kernel : ∀ t : Fin grid0.N, _)

private theorem N_eq : cfg0.N = 512 := by decide

/-- Row r of the feature block of point t is row 1024 t + r of the features. -/
private theorem fblk_apply (c : Dev nD) (t : Fin cfg0.N) (r : Fin 1024) (d : Fin 128) (h : 1024 * t.val + r.val < 524288) :
    fblk V c t (ix2 r d) = farr V c (ix2 ⟨1024 * t.val + r.val, h⟩ d) := by
  show ((cfg0.win 0).blk t).view.read (Elt Ideal) (V c (Pipeline.arrRef spec0 0)) (ix2 r d) = _
  rw [View.read_apply]
  show V c main_arg0 (((cfg0.win 0).blk t).view.emb (ix2 r d)) = V c main_arg0 _
  congr 1
  funext a
  apply Fin.ext
  obtain ⟨e0, e1, -⟩ := idx_facts t
  match a with
  | ⟨0, _⟩ => show win0_0.index t (0 : Fin 2) * 1024 + 1 * r.val = 1024 * t.val + r.val; rw [e0]; omega
  | ⟨1, _⟩ => show win0_0.index t (1 : Fin 2) * 128 + 1 * d.val = d.val; rw [e1]; omega

/-- Row r of the label block of point t is row 1024 t + r of the labels. -/
private theorem lblk_apply (c : Dev nD) (t : Fin cfg0.N) (r : Fin 1024) (h : 1024 * t.val + r.val < 524288) :
    lblk V c t (ix1 r) = larr V c (ix1 ⟨1024 * t.val + r.val, h⟩) := by
  show ((cfg0.win 1).blk t).view.read (Elt Ideal) (V c (Pipeline.arrRef spec0 1)) (ix1 r) = _
  rw [View.read_apply]
  show V c main_arg1 (((cfg0.win 1).blk t).view.emb (ix1 r)) = V c main_arg1 _
  congr 1
  funext a
  apply Fin.ext
  obtain ⟨-, -, e2, -⟩ := idx_facts t
  match a with
  | ⟨0, _⟩ => show win0_1.index t (0 : Fin 1) * 1024 + 1 * r.val = 1024 * t.val + r.val; rw [e2]; omega

/-- A quantity carried through the 512 grid points that is reset to zero plus the point's 1024-row block sum at the
    first point of a half and gains the point's block sum at every other point holds, at the last point of half q, the
    sum over the 262144 rows of that half. -/
private theorem half_sum {M : Type*} [AddCommMonoid M] {N : ℕ} (q : Fin 2)
    (a : (n : ℕ) → n < N → M) (g : Fin N → Fin 1024 → M) (f : Fin 262144 → M)
    (hfirst : ∀ t : Fin N, t.val % 256 = 0 → a t.val t.isLt = 0 + ∑ r : Fin 1024, g t r)
    (hnext : ∀ t : Fin N, ¬t.val % 256 = 0 →
      a t.val t.isLt = a (t.val - 1) (Nat.lt_of_le_of_lt (Nat.sub_le _ _) t.isLt) + ∑ r : Fin 1024, g t r)
    (hg : ∀ (t : Fin N) (s : ℕ) (r : Fin 1024) (i : Fin 262144),
      t.val = 256 * q.val + s → i.val = 1024 * s + r.val → g t r = f i)
    (h : 256 * q.val + 255 < N) :
    a (256 * q.val + 255) h = ∑ i : Fin 262144, f i := by
  have hb : ∀ s, s < 256 → 256 * q.val + s < N := fun s hs => by omega
  have same : ∀ (u v : ℕ) (hu : u < N) (hv : v < N), u = v → a u hu = a v hv := fun u v hu hv e => by subst e; rfl
  let a' : ℕ → M := fun s => if hs : s < 256 then a (256 * q.val + s) (hb s hs) else 0
  let g' : ℕ → Fin 1024 → M := fun s r => if hs : s < 256 then g ⟨256 * q.val + s, hb s hs⟩ r else 0
  have key : a' (256 - 1) = ∑ i : Fin 262144, f i := by
    refine LibTile.acc_last_eq_sum (m := 256) (n := 1024) (N := 262144) rfl (by decide) f a' g' ?_ ?_ ?_
    · intro s hs p
      show (if hs : s < 256 then g ⟨256 * q.val + s, hb s hs⟩ p else 0) = _
      rw [dif_pos hs]
      exact hg _ s p _ rfl rfl
    · show (if hs : 0 < 256 then a (256 * q.val + 0) (hb 0 hs) else 0)
        = 0 + ∑ p : Fin 1024, (if hs : 0 < 256 then g ⟨256 * q.val + 0, hb 0 hs⟩ p else 0)
      rw [dif_pos (by decide : 0 < 256)]
      simp only [dif_pos (by decide : 0 < 256)]
      exact hfirst ⟨256 * q.val + 0, hb 0 (by decide)⟩ (by show (256 * q.val + 0) % 256 = 0; omega)
    · intro s hs
      have hs' : s < 256 := by omega
      show (if hs : s + 1 < 256 then a (256 * q.val + (s + 1)) (hb (s + 1) hs) else 0)
        = (if hs : s < 256 then a (256 * q.val + s) (hb s hs) else 0)
          + ∑ p : Fin 1024, (if hs : s + 1 < 256 then g ⟨256 * q.val + (s + 1), hb (s + 1) hs⟩ p else 0)
      rw [dif_pos hs, dif_pos hs']
      simp only [dif_pos hs]
      refine (hnext ⟨256 * q.val + (s + 1), hb (s + 1) hs⟩ (by show ¬(256 * q.val + (s + 1)) % 256 = 0; omega)).trans ?_
      exact congrArg (· + _) (same _ _ _ _ (by show 256 * q.val + (s + 1) - 1 = 256 * q.val + s; omega))
  have e : a' (256 - 1) = a (256 * q.val + 255) h := by
    show (if hs : 255 < 256 then a (256 * q.val + 255) (hb 255 hs) else 0) = _
    rw [dif_pos (by decide : 255 < 256)]
  exact e.symm.trans key

/-! ## The first result: the class sums -/

/-- At the last point of half q the first result block holds, at (0, d, k), column d of the features summed over the
    rows of class k within the half. -/
private theorem seg_last (c : Dev nD) (q : Fin 2) (d : Fin 128) (k : Fin 7000) (h : 256 * q.val + 255 < cfg0.N) :
    (outsAt0 V c (256 * q.val + 255) h).1 (ix3 0 d k) = segCore (farr V c) (larr V c) q d k := by
  refine half_sum (N := cfg0.N) q (fun n hn => (outsAt0 V c n hn).1 (ix3 0 d k))
    (fun t r => fblk V c t (ix2 r d) * hotBlk (lblk V c t) r k)
    (fun i => farr V c (ix2 (coreRow q i) d) * hot (larr V c) (coreRow q i) k) ?_ ?_ ?_ h
  · intro t h0
    show (outsAt0 V c t.val t.isLt).1 (ix3 0 d k) = _
    rw [outs_first V c t h0]
    dsimp only
    rw [pay7_apply, pay2_apply]
  · intro t h0
    show (outsAt0 V c t.val t.isLt).1 (ix3 0 d k) = _
    rw [outs_next V c t h0]
    dsimp only
    rw [pay7_apply]
  · intro t s r i ht hi
    have hN : cfg0.N = 512 := N_eq
    have hrow : (coreRow q i).val = 1024 * t.val + r.val := by
      show 262144 * q.val + i.val = _; omega
    have hlt : 1024 * t.val + r.val < 524288 := by have := t.isLt; have := r.isLt; omega
    have ec : coreRow q i = ⟨1024 * t.val + r.val, hlt⟩ := Fin.ext hrow
    show fblk V c t (ix2 r d) * hotBlk (lblk V c t) r k = farr V c (ix2 (coreRow q i) d) * hot (larr V c) (coreRow q i) k
    rw [ec, fblk_apply V c t r d hlt]
    unfold hotBlk hot
    rw [lblk_apply V c t r hlt]

/-- What a point that writes the first result back writes: its block of the whole-half sums. -/
private theorem flushed2_eq (c : Dev nD) (t : Fin cfg0.N) (hf : (cfg0.win 2).flush t = true) :
    (dat0 V c).flushed 2 t = ((cfg0.win 2).blk t).view.read (Elt Ideal)
      (fun j : S2x128x7000.Idx => segCore (farr V c) (larr V c) (j 0) (j 1) (j 2)) := by
  have h255 : t.val % 256 = 255 := (flush0_2 t).mp hf
  have hN : cfg0.N = 512 := N_eq
  have hq : t.val / 256 < 2 := by have := t.isLt; omega
  have same : ∀ (u v : ℕ) (hu : u < cfg0.N) (hv : v < cfg0.N), u = v → outsAt0 V c u hu = outsAt0 V c v hv :=
    fun u v hu hv e => by subst e; rfl
  have hlast : 256 * (⟨t.val / 256, hq⟩ : Fin 2).val + 255 < cfg0.N := by
    show 256 * (t.val / 256) + 255 < cfg0.N; have := t.isLt; omega
  show (cfg0.win 2).cut (grid0.coords t) ((dat0 V c).after 2 t) = _
  rw [after0_2, same t.val (256 * (⟨t.val / 256, hq⟩ : Fin 2).val + 255) t.isLt hlast
    (by show t.val = 256 * (t.val / 256) + 255; omega)]
  funext y
  rw [View.read_apply]
  obtain ⟨e0, e1, e2, e3, e4, e5, -⟩ := idx_facts t
  have hy0 : (y 0).val < 1 := (y 0).isLt
  have hy1 : (y 1).val < 128 := (y 1).isLt
  have hy2 : (y 2).val < 7000 := (y 2).isLt
  have hL : (cfg0.win 2).xinj (grid0.coords t) y = ix3 (0 : Fin 1) ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have a0 : (((cfg0.win 2).blk t).view.emb y 0 : Fin 2) = ⟨t.val / 256, hq⟩ :=
    Fin.ext (by show win0_2.index t (0 : Fin 3) * 1 + 1 * (y 0).val = t.val / 256; rw [e3]; omega)
  have a1 : (((cfg0.win 2).blk t).view.emb y 1 : Fin 128) = ⟨(y 1).val, hy1⟩ :=
    Fin.ext (by show win0_2.index t (1 : Fin 3) * 128 + 1 * (y 1).val = (y 1).val; rw [e4]; omega)
  have a2 : (((cfg0.win 2).blk t).view.emb y 2 : Fin 7000) = ⟨(y 2).val, hy2⟩ :=
    Fin.ext (by show win0_2.index t (2 : Fin 3) * 7000 + 1 * (y 2).val = (y 2).val; rw [e5]; omega)
  refine Eq.trans (b := segCore (farr V c) (larr V c) ⟨t.val / 256, hq⟩ ⟨(y 1).val, hy1⟩ ⟨(y 2).val, hy2⟩) ?_ ?_
  · exact (congrArg (outsAt0 V c (256 * (⟨t.val / 256, hq⟩ : Fin 2).val + 255) hlast).1 hL).trans
      (seg_last V c ⟨t.val / 256, hq⟩ ⟨(y 1).val, hy1⟩ ⟨(y 2).val, hy2⟩ hlast)
  · rw [a0, a1, a2]
    exact (cast_eq _ _).symm

/-- An index of the first result lies in a point's block when its leading coordinate is the point's half. -/
private theorem mem_blk2 (t : Fin cfg0.N) (i : S2x128x7000.Idx) :
    i ∈ ((cfg0.win 2).blk t).view.set ↔ ∀ a : Fin 3, win0_2.index t a * S1x128x7000.size a ≤ (i a).val
      ∧ (i a).val < win0_2.index t a * S1x128x7000.size a + S1x128x7000.size a := by
  show i ∈ ((View.whole main_v0_0).slice (win0_2.rect t)).set ↔ _
  rw [View.set_slice_whole, Rect.mem_set_unit]
  exact Iff.rfl

/-- After the first launch its first result holds, at (c, d, k), column d of the features summed over the rows of
    class k within half c. -/
theorem arr2_final (c : Dev nD) :
    ((dat0 (F := Ideal) V c).arrAt 2 cfg0.N : S2x128x7000.Idx → EReal)
      = fun j => segCore (farr V c) (larr V c) (j 0) (j 1) (j 2) := by
  refine (dat0 V c).arrAt_eq_of_cover 2 _ (flushed2_eq V c) fun i => ?_
  have hN : cfg0.N = 512 := N_eq
  have hi0 : (i 0).val < 2 := (i 0).isLt
  have hi1 : (i 1).val < 128 := (i 1).isLt
  have hi2 : (i 2).val < 7000 := (i 2).isLt
  have ht : 256 * (i 0).val + 255 < cfg0.N := by omega
  obtain ⟨-, -, -, e3, e4, e5, -⟩ := idx_facts ⟨256 * (i 0).val + 255, ht⟩
  refine ⟨⟨256 * (i 0).val + 255, ht⟩, (flush0_2 _).mpr (by show (256 * (i 0).val + 255) % 256 = 255; omega), ?_⟩
  rw [mem_blk2]
  intro a
  match a with
  | ⟨0, _⟩ =>
    show win0_2.index ⟨256 * (i 0).val + 255, ht⟩ (0 : Fin 3) * 1 ≤ (i 0).val
      ∧ (i 0).val < win0_2.index ⟨256 * (i 0).val + 255, ht⟩ (0 : Fin 3) * 1 + 1
    rw [e3]; show (256 * (i 0).val + 255) / 256 * 1 ≤ (i 0).val ∧ (i 0).val < (256 * (i 0).val + 255) / 256 * 1 + 1; omega
  | ⟨1, _⟩ =>
    show win0_2.index ⟨256 * (i 0).val + 255, ht⟩ (1 : Fin 3) * 128 ≤ (i 1).val
      ∧ (i 1).val < win0_2.index ⟨256 * (i 0).val + 255, ht⟩ (1 : Fin 3) * 128 + 128
    rw [e4]; omega
  | ⟨2, _⟩ =>
    show win0_2.index ⟨256 * (i 0).val + 255, ht⟩ (2 : Fin 3) * 7000 ≤ (i 2).val
      ∧ (i 2).val < win0_2.index ⟨256 * (i 0).val + 255, ht⟩ (2 : Fin 3) * 7000 + 7000
    rw [e5]; omega

/-! ## The second result: the counts -/

/-- At the last point of half q the second result block holds, at (0, 0, k), the number of rows of class k within the
    half. -/
private theorem cnt_last (c : Dev nD) (q : Fin 2) (k : Fin 7000) (h : 256 * q.val + 255 < cfg0.N) :
    (outsAt0 V c (256 * q.val + 255) h).2.1 (ix3 0 0 k) = cntCore (larr V c) q k := by
  refine half_sum (N := cfg0.N) q (fun n hn => (outsAt0 V c n hn).2.1 (ix3 0 0 k))
    (fun t r => hotBlk (lblk V c t) r k)
    (fun i => hot (larr V c) (coreRow q i) k) ?_ ?_ ?_ h
  · intro t h0
    show (outsAt0 V c t.val t.isLt).2.1 (ix3 0 0 k) = _
    rw [outs_first V c t h0]
    dsimp only
    rw [pay8_apply, pay3_apply]
  · intro t h0
    show (outsAt0 V c t.val t.isLt).2.1 (ix3 0 0 k) = _
    rw [outs_next V c t h0]
    dsimp only
    rw [pay8_apply]
  · intro t s r i ht hi
    have hN : cfg0.N = 512 := N_eq
    have hrow : (coreRow q i).val = 1024 * t.val + r.val := by
      show 262144 * q.val + i.val = _; omega
    have hlt : 1024 * t.val + r.val < 524288 := by have := t.isLt; have := r.isLt; omega
    have ec : coreRow q i = ⟨1024 * t.val + r.val, hlt⟩ := Fin.ext hrow
    show hotBlk (lblk V c t) r k = hot (larr V c) (coreRow q i) k
    rw [ec]
    unfold hotBlk hot
    rw [lblk_apply V c t r hlt]

/-- What a point that writes the second result back writes: its block of the whole-half counts. -/
private theorem flushed3_eq (c : Dev nD) (t : Fin cfg0.N) (hf : (cfg0.win 3).flush t = true) :
    (dat0 V c).flushed 3 t = ((cfg0.win 3).blk t).view.read (Elt Ideal)
      (fun j : S2x1x7000.Idx => cntCore (larr V c) (j 0) (j 2)) := by
  have h255 : t.val % 256 = 255 := (flush0_3 t).mp hf
  have hN : cfg0.N = 512 := N_eq
  have hq : t.val / 256 < 2 := by have := t.isLt; omega
  have same : ∀ (u v : ℕ) (hu : u < cfg0.N) (hv : v < cfg0.N), u = v → outsAt0 V c u hu = outsAt0 V c v hv :=
    fun u v hu hv e => by subst e; rfl
  have hlast : 256 * (⟨t.val / 256, hq⟩ : Fin 2).val + 255 < cfg0.N := by
    show 256 * (t.val / 256) + 255 < cfg0.N; have := t.isLt; omega
  show (cfg0.win 3).cut (grid0.coords t) ((dat0 V c).after 3 t) = _
  rw [after0_3, same t.val (256 * (⟨t.val / 256, hq⟩ : Fin 2).val + 255) t.isLt hlast
    (by show t.val = 256 * (t.val / 256) + 255; omega)]
  funext y
  rw [View.read_apply]
  obtain ⟨-, -, -, -, -, -, e6, e7, e8, -⟩ := idx_facts t
  have hy0 : (y 0).val < 1 := (y 0).isLt
  have hy1 : (y 1).val < 1 := (y 1).isLt
  have hy2 : (y 2).val < 7000 := (y 2).isLt
  have hL : (cfg0.win 3).xinj (grid0.coords t) y = ix3 (0 : Fin 1) (0 : Fin 1) ⟨(y 2).val, hy2⟩ := by
    funext a
    apply Fin.ext
    match a with
    | ⟨0, _⟩ => show (y 0).val = 0; omega
    | ⟨1, _⟩ => show (y 1).val = 0; omega
    | ⟨2, _⟩ => rfl
  have a0 : (((cfg0.win 3).blk t).view.emb y 0 : Fin 2) = ⟨t.val / 256, hq⟩ :=
    Fin.ext (by show win0_3.index t (0 : Fin 3) * 1 + 1 * (y 0).val = t.val / 256; rw [e6]; omega)
  have a2 : (((cfg0.win 3).blk t).view.emb y 2 : Fin 7000) = ⟨(y 2).val, hy2⟩ :=
    Fin.ext (by show win0_3.index t (2 : Fin 3) * 7000 + 1 * (y 2).val = (y 2).val; rw [e8]; omega)
  refine Eq.trans (b := cntCore (larr V c) ⟨t.val / 256, hq⟩ ⟨(y 2).val, hy2⟩) ?_ ?_
  · exact (congrArg (outsAt0 V c (256 * (⟨t.val / 256, hq⟩ : Fin 2).val + 255) hlast).2.1 hL).trans
      (cnt_last V c ⟨t.val / 256, hq⟩ ⟨(y 2).val, hy2⟩ hlast)
  · rw [a0, a2]
    exact (cast_eq _ _).symm

/-- An index of the second result lies in a point's block when its leading coordinate is the point's half. -/
private theorem mem_blk3 (t : Fin cfg0.N) (i : S2x1x7000.Idx) :
    i ∈ ((cfg0.win 3).blk t).view.set ↔ ∀ a : Fin 3, win0_3.index t a * S1x1x7000.size a ≤ (i a).val
      ∧ (i a).val < win0_3.index t a * S1x1x7000.size a + S1x1x7000.size a := by
  show i ∈ ((View.whole main_v0_1).slice (win0_3.rect t)).set ↔ _
  rw [View.set_slice_whole, Rect.mem_set_unit]
  exact Iff.rfl

/-- Its second result holds, at (c, 0, k), the number of rows of class k within half c. -/
theorem arr3_final (c : Dev nD) :
    ((dat0 (F := Ideal) V c).arrAt 3 cfg0.N : S2x1x7000.Idx → EReal)
      = fun j => cntCore (larr V c) (j 0) (j 2) := by
  refine (dat0 V c).arrAt_eq_of_cover 3 _ (flushed3_eq V c) fun i => ?_
  have hN : cfg0.N = 512 := N_eq
  have hi0 : (i 0).val < 2 := (i 0).isLt
  have hi1 : (i 1).val < 1 := (i 1).isLt
  have hi2 : (i 2).val < 7000 := (i 2).isLt
  have ht : 256 * (i 0).val + 255 < cfg0.N := by omega
  obtain ⟨-, -, -, -, -, -, e6, e7, e8, -⟩ := idx_facts ⟨256 * (i 0).val + 255, ht⟩
  refine ⟨⟨256 * (i 0).val + 255, ht⟩, (flush0_3 _).mpr (by show (256 * (i 0).val + 255) % 256 = 255; omega), ?_⟩
  rw [mem_blk3]
  intro a
  match a with
  | ⟨0, _⟩ =>
    show win0_3.index ⟨256 * (i 0).val + 255, ht⟩ (0 : Fin 3) * 1 ≤ (i 0).val
      ∧ (i 0).val < win0_3.index ⟨256 * (i 0).val + 255, ht⟩ (0 : Fin 3) * 1 + 1
    rw [e6]; show (256 * (i 0).val + 255) / 256 * 1 ≤ (i 0).val ∧ (i 0).val < (256 * (i 0).val + 255) / 256 * 1 + 1; omega
  | ⟨1, _⟩ =>
    show win0_3.index ⟨256 * (i 0).val + 255, ht⟩ (1 : Fin 3) * 1 ≤ (i 1).val
      ∧ (i 1).val < win0_3.index ⟨256 * (i 0).val + 255, ht⟩ (1 : Fin 3) * 1 + 1
    rw [e7]; omega
  | ⟨2, _⟩ =>
    show win0_3.index ⟨256 * (i 0).val + 255, ht⟩ (2 : Fin 3) * 7000 ≤ (i 2).val
      ∧ (i 2).val < win0_3.index ⟨256 * (i 0).val + 255, ht⟩ (2 : Fin 3) * 7000 + 7000
    rw [e8]; omega

/-! ## The third result: the squared features -/

/-- At the last point of half q the third result block holds, at (0, 0, 0), the sum of the squared features of the
    half. -/
private theorem sq_last (c : Dev nD) (q : Fin 2) (h : 256 * q.val + 255 < cfg0.N) :
    (outsAt0 V c (256 * q.val + 255) h).2.2 (ix3 0 0 0) = sqCore (farr V c) q := by
  refine half_sum (N := cfg0.N) q (fun n hn => (outsAt0 V c n hn).2.2 (ix3 0 0 0))
    (fun t r => ∑ d : Fin 128, fblk V c t (ix2 r d) * fblk V c t (ix2 r d))
    (fun i => ∑ d : Fin 128, farr V c (ix2 (coreRow q i) d) * farr V c (ix2 (coreRow q i) d)) ?_ ?_ ?_ h
  · intro t h0
    show (outsAt0 V c t.val t.isLt).2.2 (ix3 0 0 0) = _
    rw [outs_first V c t h0]
    dsimp only
    rw [pay1_apply, pay4_apply]
  · intro t h0
    show (outsAt0 V c t.val t.isLt).2.2 (ix3 0 0 0) = _
    rw [outs_next V c t h0]
    dsimp only
    rw [pay1_apply]
  · intro t s r i ht hi
    have hN : cfg0.N = 512 := N_eq
    have hrow : (coreRow q i).val = 1024 * t.val + r.val := by
      show 262144 * q.val + i.val = _; omega
    have hlt : 1024 * t.val + r.val < 524288 := by have := t.isLt; have := r.isLt; omega
    have ec : coreRow q i = ⟨1024 * t.val + r.val, hlt⟩ := Fin.ext hrow
    show ∑ d : Fin 128, fblk V c t (ix2 r d) * fblk V c t (ix2 r d)
      = ∑ d : Fin 128, farr V c (ix2 (coreRow q i) d) * farr V c (ix2 (coreRow q i) d)
    rw [ec]
    exact Finset.sum_congr rfl fun d _ => by rw [fblk_apply V c t r d hlt]

/-- What a point that writes the third result back writes: its block of the whole-half sums of squares. -/
private theorem flushed4_eq (c : Dev nD) (t : Fin cfg0.N) (hf : (cfg0.win 4).flush t = true) :
    (dat0 V c).flushed 4 t = ((cfg0.win 4).blk t).view.read (Elt Ideal)
      (fun j : S2x1x1.Idx => sqCore (farr V c) (j 0)) := by
  have h255 : t.val % 256 = 255 := (flush0_4 t).mp hf
  have hN : cfg0.N = 512 := N_eq
  have hq : t.val / 256 < 2 := by have := t.isLt; omega
  have same : ∀ (u v : ℕ) (hu : u < cfg0.N) (hv : v < cfg0.N), u = v → outsAt0 V c u hu = outsAt0 V c v hv :=
    fun u v hu hv e => by subst e; rfl
  have hlast : 256 * (⟨t.val / 256, hq⟩ : Fin 2).val + 255 < cfg0.N := by
    show 256 * (t.val / 256) + 255 < cfg0.N; have := t.isLt; omega
  show (cfg0.win 4).cut (grid0.coords t) ((dat0 V c).after 4 t) = _
  rw [after0_4, same t.val (256 * (⟨t.val / 256, hq⟩ : Fin 2).val + 255) t.isLt hlast
    (by show t.val = 256 * (t.val / 256) + 255; omega)]
  funext y
  rw [View.read_apply]
  obtain ⟨-, -, -, -, -, -, -, -, -, e9, e10, e11⟩ := idx_facts t
  have hy0 : (y 0).val < 1 := (y 0).isLt
  have hy1 : (y 1).val < 1 := (y 1).isLt
  have hy2 : (y 2).val < 1 := (y 2).isLt
  have hL : (cfg0.win 4).xinj (grid0.coords t) y = ix3 (0 : Fin 1) (0 : Fin 1) (0 : Fin 1) := by
    funext a
    apply Fin.ext
    match a with
    | ⟨0, _⟩ => show (y 0).val = 0; omega
    | ⟨1, _⟩ => show (y 1).val = 0; omega
    | ⟨2, _⟩ => show (y 2).val = 0; omega
  have a0 : (((cfg0.win 4).blk t).view.emb y 0 : Fin 2) = ⟨t.val / 256, hq⟩ :=
    Fin.ext (by show win0_4.index t (0 : Fin 3) * 1 + 1 * (y 0).val = t.val / 256; rw [e9]; omega)
  refine Eq.trans (b := sqCore (farr V c) ⟨t.val / 256, hq⟩) ?_ ?_
  · exact (congrArg (outsAt0 V c (256 * (⟨t.val / 256, hq⟩ : Fin 2).val + 255) hlast).2.2 hL).trans
      (sq_last V c ⟨t.val / 256, hq⟩ hlast)
  · rw [a0]
    exact (cast_eq _ _).symm

/-- An index of the third result lies in a point's block when its leading coordinate is the point's half. -/
private theorem mem_blk4 (t : Fin cfg0.N) (i : S2x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v0_2).slice (win0_4.rect t)).set ↔ _
  rw [View.set_slice_whole, Rect.mem_set_unit]
  exact Iff.rfl

/-- Its third result holds, at (c, 0, 0), the sum of the squared features of half c. -/
theorem arr4_final (c : Dev nD) :
    ((dat0 (F := Ideal) V c).arrAt 4 cfg0.N : S2x1x1.Idx → EReal)
      = fun j => sqCore (farr V c) (j 0) := by
  refine (dat0 V c).arrAt_eq_of_cover 4 _ (flushed4_eq V c) fun i => ?_
  have hN : cfg0.N = 512 := N_eq
  have hi0 : (i 0).val < 2 := (i 0).isLt
  have hi1 : (i 1).val < 1 := (i 1).isLt
  have hi2 : (i 2).val < 1 := (i 2).isLt
  have ht : 256 * (i 0).val + 255 < cfg0.N := by omega
  obtain ⟨-, -, -, -, -, -, -, -, -, e9, e10, e11⟩ := idx_facts ⟨256 * (i 0).val + 255, ht⟩
  refine ⟨⟨256 * (i 0).val + 255, ht⟩, (flush0_4 _).mpr (by show (256 * (i 0).val + 255) % 256 = 255; omega), ?_⟩
  rw [mem_blk4]
  intro a
  match a with
  | ⟨0, _⟩ =>
    show win0_4.index ⟨256 * (i 0).val + 255, ht⟩ (0 : Fin 3) * 1 ≤ (i 0).val
      ∧ (i 0).val < win0_4.index ⟨256 * (i 0).val + 255, ht⟩ (0 : Fin 3) * 1 + 1
    rw [e9]; show (256 * (i 0).val + 255) / 256 * 1 ≤ (i 0).val ∧ (i 0).val < (256 * (i 0).val + 255) / 256 * 1 + 1; omega
  | ⟨1, _⟩ =>
    show win0_4.index ⟨256 * (i 0).val + 255, ht⟩ (1 : Fin 3) * 1 ≤ (i 1).val
      ∧ (i 1).val < win0_4.index ⟨256 * (i 0).val + 255, ht⟩ (1 : Fin 3) * 1 + 1
    rw [e10]; omega
  | ⟨2, _⟩ =>
    show win0_4.index ⟨256 * (i 0).val + 255, ht⟩ (2 : Fin 3) * 1 ≤ (i 2).val
      ∧ (i 2).val < win0_4.index ⟨256 * (i 0).val + 255, ht⟩ (2 : Fin 3) * 1 + 1
    rw [e11]; omega

end Cert.Hand.R0

end
-- ==== Proof.R1Value.lean ====
/-
  What the second launch's body leaves in its two result blocks, read at an index.
-/
import proofs.«404958_j42099269436115_3_alg».proof.Proof.Gen.KernelIdeal.Frame
import proofs.«404958_j42099269436115_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.Hand.R1

open Cert.KernelIdeal Cert.KernelIdeal.Gen Cert.Hand
open Idealize.ShloMosaic Idealize.ShloMosaic.TcCoe Idealize.ShloMosaic.ValueIdx Idealize.SL.Sem

/-- Half `0` of the class sums, read through its rectangle. -/
private theorem ld_sums0 (x0 : Vec Ideal S2x128x7000 .f32) (u : Fin 1) (d : Fin 128) (k : Fin 7000) :
    (View.ld x0 r1_0 : S1x128x7000.Idx → EReal) (ix3 u d k) = x0 (ix3 0 d k) := by
  show x0 (r1_0.idx (ix3 u d k)) = x0 (ix3 0 d k)
  refine congrArg x0 (funext fun a => Fin.ext ?_)
  match a with
  | ⟨0, _⟩ => show 0 + 1 * u.val = 0; omega
  | ⟨1, _⟩ => show 0 + 1 * d.val = d.val; omega
  | ⟨2, _⟩ => show 0 + 1 * k.val = k.val; omega

/-- Half `1` of the class sums, read through its rectangle. -/
private theorem ld_sums1 (x0 : Vec Ideal S2x128x7000 .f32) (u : Fin 1) (d : Fin 128) (k : Fin 7000) :
    (View.ld x0 r1_1 : S1x128x7000.Idx → EReal) (ix3 u d k) = x0 (ix3 1 d k) := by
  show x0 (r1_1.idx (ix3 u d k)) = x0 (ix3 1 d k)
  refine congrArg x0 (funext fun a => Fin.ext ?_)
  match a with
  | ⟨0, _⟩ => show 1 + 1 * u.val = 1; omega
  | ⟨1, _⟩ => show 0 + 1 * d.val = d.val; omega
  | ⟨2, _⟩ => show 0 + 1 * k.val = k.val; omega

/-- Half `0` of the counts, read through its rectangle. -/
private theorem ld_cnt0 (x1 : Vec Ideal S2x1x7000 .f32) (u w : Fin 1) (k : Fin 7000) :
    (View.ld x1 r1_2 : S1x1x7000.Idx → EReal) (ix3 u w k) = x1 (ix3 0 0 k) := by
  show x1 (r1_2.idx (ix3 u w k)) = x1 (ix3 0 0 k)
  refine congrArg x1 (funext fun a => Fin.ext ?_)
  match a with
  | ⟨0, _⟩ => show 0 + 1 * u.val = 0; omega
  | ⟨1, _⟩ => show 0 + 1 * w.val = 0; omega
  | ⟨2, _⟩ => show 0 + 1 * k.val = k.val; omega

/-- Half `1` of the counts, read through its rectangle. -/
private theorem ld_cnt1 (x1 : Vec Ideal S2x1x7000 .f32) (u w : Fin 1) (k : Fin 7000) :
    (View.ld x1 r1_3 : S1x1x7000.Idx → EReal) (ix3 u w k) = x1 (ix3 1 0 k) := by
  show x1 (r1_3.idx (ix3 u w k)) = x1 (ix3 1 0 k)
  refine congrArg x1 (funext fun a => Fin.ext ?_)
  match a with
  | ⟨0, _⟩ => show 1 + 1 * u.val = 1; omega
  | ⟨1, _⟩ => show 0 + 1 * w.val = 0; omega
  | ⟨2, _⟩ => show 0 + 1 * k.val = k.val; omega

/-- Half `0` of the sums of squares, read through its rectangle. -/
private theorem ld_sq0 (x3 : Vec Ideal S2x1x1 .f32) (u w t : Fin 1) :
    (View.ld x3 r1_4 : S1x1x1.Idx → EReal) (ix3 u w t) = x3 (ix3 0 0 0) := by
  show x3 (r1_4.idx (ix3 u w t)) = x3 (ix3 0 0 0)
  refine congrArg x3 (funext fun a => Fin.ext ?_)
  match a with
  | ⟨0, _⟩ => show 0 + 1 * u.val = 0; omega
  | ⟨1, _⟩ => show 0 + 1 * w.val = 0; omega
  | ⟨2, _⟩ => show 0 + 1 * t.val = 0; omega

/-- Half `1` of the sums of squares, read through its rectangle. -/
private theorem ld_sq1 (x3 : Vec Ideal S2x1x1 .f32) (u w t : Fin 1) :
    (View.ld x3 r1_5 : S1x1x1.Idx → EReal) (ix3 u w t) = x3 (ix3 1 0 0) := by
  show x3 (r1_5.idx (ix3 u w t)) = x3 (ix3 1 0 0)
  refine congrArg x3 (funext fun a => Fin.ext ?_)
  match a with
  | ⟨0, _⟩ => show 1 + 1 * u.val = 1; omega
  | ⟨1, _⟩ => show 0 + 1 * w.val = 0; omega
  | ⟨2, _⟩ => show 0 + 1 * t.val = 0; omega

/-- Two `[1, 128, 7000]` blocks added, at column d and class k. -/
private theorem pay2_apply (v0 v2 : Vec Ideal S1x128x7000 .f32) (d : Fin 128) (k : Fin 7000) :
    (k1_pay2 (F := Ideal) v0 v2 : S128x7000.Idx → EReal) (ix2 d k) = v0 (ix3 0 d k) + v2 (ix3 0 d k) := by
  unfold k1_pay2
  simp only [addf_apply]
  rw [shapeCast_1ab_ab_apply, shapeCast_1ab_ab_apply]

/-- Two `[1, 1, 7000]` blocks added, at class k. -/
private theorem pay3_apply (v5 v7 : Vec Ideal S1x1x7000 .f32) (u : Fin 1) (k : Fin 7000) :
    (k1_pay3 (F := Ideal) v5 v7 : S1x7000.Idx → EReal) (ix2 u k) = v5 (ix3 0 u k) + v7 (ix3 0 u k) := by
  unfold k1_pay3
  simp only [addf_apply]
  rw [shapeCast_1ab_ab_apply, shapeCast_1ab_ab_apply]

/-- Two `[1, 1, 1]` blocks added. -/
private theorem pay4_apply (v10 v12 : Vec Ideal S1x1x1 .f32) (u w : Fin 1) :
    (k1_pay4 (F := Ideal) v10 v12 : S1x1.Idx → EReal) (ix2 u w) = v10 (ix3 0 u w) + v12 (ix3 0 u w) := by
  unfold k1_pay4
  simp only [addf_apply]
  rw [shapeCast_1ab_ab_apply, shapeCast_1ab_ab_apply]

/-- The centers transposed: column d, class k reads center k at column d. -/
private theorem pay5_apply (v15 : Vec Ideal S7000x128 .f32) (d : Fin 128) (k : Fin 7000) :
    (k1_pay5 (F := Ideal) v15 : S128x7000.Idx → EReal) (ix2 d k) = v15 (ix2 k d) := by
  unfold k1_pay5
  exact transpose_ix2_apply _ _ _ _

/-- A sum over the rows of a matrix, read at a column. -/
private theorem sum_rows {a b : ℕ} (src : FVec Ideal ⟨2, ![a, b]⟩ .f32) (h : Shape.Reduces ⟨2, ![a, b]⟩ [0] ⟨1, ![b]⟩)
    (hφ : FKind.Formats .f32) (hacc : (0x00000000#32 : BitVec 32) = 0x00000000#32) (k : Fin b) :
    multiReduction .add [0] ⟨1, ![b]⟩ src 0x00000000#32 h hφ hacc (ix1 k) = ∑ d : Fin a, src (ix2 d k) := by
  refine (Ideal.multiReduction_add_single src 0x00000000#32 h hφ hacc (ix1 k)).trans ?_
  refine Finset.sum_congr rfl fun d _ => congrArg src (funext fun c => Fin.ext ?_)
  match c with
  | ⟨0, _⟩ => rfl
  | ⟨1, _⟩ => rfl

/-- A sum along the one row of a `[1, b]` matrix. -/
private theorem sum_lanes {b : ℕ} (src : FVec Ideal ⟨2, ![1, b]⟩ .f32) (h : Shape.Reduces ⟨2, ![1, b]⟩ [1] ⟨1, ![1]⟩)
    (hφ : FKind.Formats .f32) (hacc : (0x00000000#32 : BitVec 32) = 0x00000000#32) (u : Fin 1) :
    multiReduction .add [1] ⟨1, ![1]⟩ src 0x00000000#32 h hφ hacc (ix1 u) = ∑ k : Fin b, src (ix2 0 k) := by
  refine (Ideal.multiReduction_add_single src 0x00000000#32 h hφ hacc (ix1 u)).trans ?_
  refine Finset.sum_congr rfl fun k _ => congrArg src (funext fun c => Fin.ext ?_)
  match c with
  | ⟨0, _⟩ => show u.val = 0; omega
  | ⟨1, _⟩ => rfl

/-- The update z + (1/2)/(1 + n) · (S − n · z) computed on the transposed layout and transposed back, at (k, d). -/
private theorem pay6_apply (v0 v2 : Vec Ideal S1x128x7000 .f32) (v5 v7 : Vec Ideal S1x1x7000 .f32) (v15 : Vec Ideal S7000x128 .f32)
    (k : Fin 7000) (d : Fin 128) :
    (k1_pay6 (F := Ideal) v0 v2 v5 v7 v15 : S7000x128.Idx → EReal) (ix2 k d)
      = v15 (ix2 k d) + Ideal.div half (one + (v5 (ix3 0 0 k) + v7 (ix3 0 0 k)))
          * ((v0 (ix3 0 d k) + v2 (ix3 0 d k)) - (v5 (ix3 0 0 k) + v7 (ix3 0 0 k)) * v15 (ix2 k d)) := by
  unfold k1_pay6
  rw [transpose_ix2_apply]
  simp only [addf_apply, mulf_apply, subf_apply]
  rw [broadcastTo_1b_ab_apply, broadcastTo_1b_ab_apply]
  simp only [divf_apply, addf_apply, broadcast_apply, pay2_apply, pay3_apply, pay5_apply]
  rfl

/-- The count of a class times the sum over the columns of its center's squares. -/
private theorem pay7_apply (v5 v7 : Vec Ideal S1x1x7000 .f32) (v15 : Vec Ideal S7000x128 .f32) (u : Fin 1) (k : Fin 7000) :
    (k1_pay7 (F := Ideal) v5 v7 v15 : S1x7000.Idx → EReal) (ix2 u k)
      = (v5 (ix3 0 u k) + v7 (ix3 0 u k)) * ∑ d : Fin 128, v15 (ix2 k d) * v15 (ix2 k d) := by
  unfold k1_pay7
  simp only [mulf_apply]
  rw [pay3_apply, shapeCast_a_1a_apply, sum_rows]
  simp only [mulf_apply, pay5_apply]

/-- The loss (1/2) · ((q − 2 · Σ_k Σ_d A · B) + Σ_k c), the sums taken over the rows first and then along the one remaining row. -/
private theorem pay1_apply (v4 v16 : FVec Ideal S128x7000 .f32) (v14 : FVec Ideal S1x1 .f32) (v32 : FVec Ideal S1x7000 .f32) (u w : Fin 1) :
    (k1_pay1 (F := Ideal) v4 v14 v16 v32 : S1x1.Idx → EReal) (ix2 u w)
      = half * ((v14 (ix2 u w) - two * ∑ k : Fin 7000, ∑ d : Fin 128, v4 (ix2 d k) * v16 (ix2 d k))
          + ∑ k : Fin 7000, v32 (ix2 0 k)) := by
  unfold k1_pay1
  simp only [mulf_apply, addf_apply, subf_apply, broadcast_apply]
  rw [shapeCast_a_1a_apply, shapeCast_a_1a_apply, sum_lanes, sum_lanes]
  have e : ∀ k : Fin 7000,
      shapeCast S1x7000 (multiReduction (F := Ideal) .add [0] S7000 (mulf v4 v16) 0x00000000#32 reduces_S128x7000_S7000 (.inl rfl) rfl)
          shapeCasts_S7000_S1x7000 (ix2 0 k)
        = ∑ d : Fin 128, v4 (ix2 d k) * v16 (ix2 d k) := fun k => by
    rw [shapeCast_a_1a_apply, sum_rows]
    simp only [mulf_apply]
  simp only [e]
  rfl

/-- The two halves of the class sums, added, at column d and class k. -/
private theorem sums_apply (x0 : Vec Ideal S2x128x7000 .f32) (d : Fin 128) (k : Fin 7000) :
    (k1_pay2 (F := Ideal) (View.ld x0 r1_0) (View.ld x0 r1_1) : S128x7000.Idx → EReal) (ix2 d k)
      = x0 (ix3 0 d k) + x0 (ix3 1 d k) := by
  rw [pay2_apply, ld_sums0, ld_sums1]

/-- The two halves of the sums of squares, added. -/
private theorem sq_apply (x3 : Vec Ideal S2x1x1 .f32) (u w : Fin 1) :
    (k1_pay4 (F := Ideal) (View.ld x3 r1_4) (View.ld x3 r1_5) : S1x1.Idx → EReal) (ix2 u w)
      = x3 (ix3 0 0 0) + x3 (ix3 1 0 0) := by
  rw [pay4_apply, ld_sq0, ld_sq1]

/-- The count of class k times the squared norm of its center. -/
private theorem cntsq_apply (x1 : Vec Ideal S2x1x7000 .f32) (x2 : Vec Ideal S7000x128 .f32) (u : Fin 1) (k : Fin 7000) :
    (k1_pay7 (F := Ideal) (View.ld x1 r1_2) (View.ld x1 r1_3) x2 : S1x7000.Idx → EReal) (ix2 u k)
      = (x1 (ix3 0 0 k) + x1 (ix3 1 0 k)) * ∑ d : Fin 128, x2 (ix2 k d) * x2 (ix2 k d) := by
  rw [pay7_apply, ld_cnt0, ld_cnt1]

/-- The updated centers at (k, d), from the per-half class sums x0 [2, 128, 7000], the per-half counts x1 [2, 1, 7000]
    and the centers x2 [7000, 128]. -/
theorem out1_4_apply (x0 : Vec Ideal S2x128x7000 .f32) (x1 : Vec Ideal S2x1x7000 .f32) (x2 : Vec Ideal S7000x128 .f32)
    (x3 : Vec Ideal S2x1x1 .f32) (k : Fin 7000) (d : Fin 128) :
    (out1_4 (F := Ideal) x0 x1 x2 x3 : S7000x128.Idx → EReal) (ix2 k d)
      = x2 (ix2 k d) + Ideal.div half (one + (x1 (ix3 0 0 k) + x1 (ix3 1 0 k)))
          * ((x0 (ix3 0 d k) + x0 (ix3 1 d k)) - (x1 (ix3 0 0 k) + x1 (ix3 1 0 k)) * x2 (ix2 k d)) := by
  have hz : (![0, 0] : Fin 2 → ℕ) = fun _ => 0 := by
    funext a; match a with | ⟨0, _⟩ => rfl | ⟨1, _⟩ => rfl
  unfold out1_4
  rw [View.canon_unit_zero hz, View.ld_unit_zero (S := S7000x128) hz, pay6_apply,
    ld_sums0, ld_sums1, ld_cnt0, ld_cnt1]

/-- The loss, from the same and the per-half sums of squares x3 [2, 1, 1]. -/
theorem out1_5_apply (x0 : Vec Ideal S2x128x7000 .f32) (x1 : Vec Ideal S2x1x7000 .f32) (x2 : Vec Ideal S7000x128 .f32)
    (x3 : Vec Ideal S2x1x1 .f32) (y : S1x1.Idx) :
    (out1_5 (F := Ideal) x0 x1 x2 x3 : S1x1.Idx → EReal) y
      = half * (((x3 (ix3 0 0 0) + x3 (ix3 1 0 0))
            - two * ∑ k : Fin 7000, ∑ d : Fin 128, (x0 (ix3 0 d k) + x0 (ix3 1 d k)) * x2 (ix2 k d))
          + ∑ k : Fin 7000, (x1 (ix3 0 0 k) + x1 (ix3 1 0 k)) * ∑ d : Fin 128, x2 (ix2 k d) * x2 (ix2 k d)) := by
  have hz : (![0, 0] : Fin 2 → ℕ) = fun _ => 0 := by
    funext a; match a with | ⟨0, _⟩ => rfl | ⟨1, _⟩ => rfl
  obtain ⟨u, w, rfl⟩ : ∃ (u w : Fin 1), y = ix2 u w := ⟨y 0, y 1, eq_ix2 y⟩
  unfold out1_5
  rw [View.canon_unit_zero hz, View.ld_unit_zero (S := S7000x128) hz, pay1_apply, sq_apply]
  simp only [sums_apply, pay5_apply, cntsq_apply]

end Cert.Hand.R1

end
-- ==== Proof.KernelValue.lean ====
/-
  The kernel's two results as the one-hot reading of the layer.

  The second launch has one grid point and every window's block is its whole array, so what the point writes back is the
  body's result on the arrays as the launch finds them; those arrays are the first launch's three results (the per-half
  class sums, counts and sums of squares) and the centers; the scalar result is the [1, 1] loss block re-laid to rank 0.
-/
import proofs.«404958_j42099269436115_3_alg».proof.Proof.KernelRun
import proofs.«404958_j42099269436115_3_alg».proof.Proof.Spec
import proofs.«404958_j42099269436115_3_alg».proof.Proof.R0Value
import proofs.«404958_j42099269436115_3_alg».proof.Proof.R1Value
import Idealize.ShloMosaic.Lib.Pipeline.Value
import Idealize.ShloMosaic.Lib.StableHlo.Run
import Idealize.ShloMosaic.Lib.ValueIdx

set_option maxRecDepth 16384

noncomputable section

open scoped BigOperators

namespace Cert.Hand.KV

open Cert.KernelIdeal Cert.KernelIdeal.Gen Cert.Hand
open Idealize.ShloMosaic Idealize.ShloMosaic.TcCoe Idealize.ShloMosaic.ValueIdx Idealize.SL.Sem

section Region1

variable (V : (c : Dev nD) → (b : Ref sig .tc) → Buf (Elt Ideal) ((c : Thread nD τ).loc b))

/-- The four arrays the second launch reads, as it finds them. -/
abbrev stA (c : Dev nD) : Vec Ideal S2x128x7000 .f32 := V c main_v0_0
abbrev cnA (c : Dev nD) : Vec Ideal S2x1x7000 .f32 := V c main_v0_1
abbrev zA (c : Dev nD) : Vec Ideal S7000x128 .f32 := V c main_arg2
abbrev sqA (c : Dev nD) : Vec Ideal S2x1x1 .f32 := V c main_v0_2

/-- Every window of the second launch sits at block index 0 on every axis. -/
theorem idx_zero1 : ∀ t : Fin cfg1.N,
    (∀ a : Fin 3, win1_0.index t a = 0) ∧ (∀ a : Fin 3, win1_1.index t a = 0) ∧ (∀ a : Fin 2, win1_2.index t a = 0)
      ∧ (∀ a : Fin 3, win1_3.index t a = 0) ∧ (∀ a : Fin 2, win1_4.index t a = 0) ∧ (∀ a : Fin 2, win1_5.index t a = 0) :=
  (by decide +kernel : ∀ t : Fin grid1.N, _)

/-- So an input block is its array. -/
theorem iblk1_0 (c : Dev nD) (t : Fin cfg1.N) : (iblk1 V c 0 t : S2x128x7000.Idx → EReal) = stA V c := by
  funext y
  show V c main_v0_0 (((cfg1.win 0).blk t).view.emb y) = V c main_v0_0 y
  congr 1
  funext a; apply Fin.ext
  have h := (idx_zero1 t).1
  match a with
  | ⟨0, _⟩ => show win1_0.index t (0 : Fin 3) * 2 + 1 * (y 0).val = (y 0).val; rw [h 0]; omega
  | ⟨1, _⟩ => show win1_0.index t (1 : Fin 3) * 128 + 1 * (y 1).val = (y 1).val; rw [h 1]; omega
  | ⟨2, _⟩ => show win1_0.index t (2 : Fin 3) * 7000 + 1 * (y 2).val = (y 2).val; rw [h 2]; omega

theorem iblk1_1 (c : Dev nD) (t : Fin cfg1.N) : (iblk1 V c 1 t : S2x1x7000.Idx → EReal) = cnA V c := by
  funext y
  show V c main_v0_1 (((cfg1.win 1).blk t).view.emb y) = V c main_v0_1 y
  congr 1
  funext a; apply Fin.ext
  have h := (idx_zero1 t).2.1
  match a with
  | ⟨0, _⟩ => show win1_1.index t (0 : Fin 3) * 2 + 1 * (y 0).val = (y 0).val; rw [h 0]; omega
  | ⟨1, _⟩ => show win1_1.index t (1 : Fin 3) * 1 + 1 * (y 1).val = (y 1).val; rw [h 1]; omega
  | ⟨2, _⟩ => show win1_1.index t (2 : Fin 3) * 7000 + 1 * (y 2).val = (y 2).val; rw [h 2]; omega

theorem iblk1_2 (c : Dev nD) (t : Fin cfg1.N) : (iblk1 V c 2 t : S7000x128.Idx → EReal) = zA V c := by
  funext y
  show V c main_arg2 (((cfg1.win 2).blk t).view.emb y) = V c main_arg2 y
  congr 1
  funext a; apply Fin.ext
  have h := (idx_zero1 t).2.2.1
  match a with
  | ⟨0, _⟩ => show win1_2.index t (0 : Fin 2) * 7000 + 1 * (y 0).val = (y 0).val; rw [h 0]; omega
  | ⟨1, _⟩ => show win1_2.index t (1 : Fin 2) * 128 + 1 * (y 1).val = (y 1).val; rw [h 1]; omega

theorem iblk1_3 (c : Dev nD) (t : Fin cfg1.N) : (iblk1 V c 3 t : S2x1x1.Idx → EReal) = sqA V c := by
  funext y
  show V c main_v0_2 (((cfg1.win 3).blk t).view.emb y) = V c main_v0_2 y
  congr 1
  funext a; apply Fin.ext
  have h := (idx_zero1 t).2.2.2.1
  match a with
  | ⟨0, _⟩ => show win1_3.index t (0 : Fin 3) * 2 + 1 * (y 0).val = (y 0).val; rw [h 0]; omega
  | ⟨1, _⟩ => show win1_3.index t (1 : Fin 3) * 1 + 1 * (y 1).val = (y 1).val; rw [h 1]; omega
  | ⟨2, _⟩ => show win1_3.index t (2 : Fin 3) * 1 + 1 * (y 2).val = (y 2).val; rw [h 2]; omega

/-- What the one point writes back into the centers' result is the body's result on the arrays. -/
theorem flushed4_eq (c : Dev nD) (t : Fin cfg1.N) :
    (dat1 V c).flushed 4 t
      = ((cfg1.win 4).blk t).view.read (Elt Ideal) (out1_4 (stA V c) (cnA V c) (zA V c) (sqA V c)) := by
  show (cfg1.win 4).cut (grid1.coords t) ((dat1 V c).after 4 t) = _
  rw [after1_4]
  have hb : out1_4 (iblk1 V c 0 t) (iblk1 V c 1 t) (iblk1 V c 2 t) (iblk1 V c 3 t)
      = out1_4 (stA V c) (cnA V c) (zA V c) (sqA V c) :=
    congr (congr (congr (congrArg out1_4 (iblk1_0 V c t)) (iblk1_1 V c t)) (iblk1_2 V c t)) (iblk1_3 V c t)
  rw [hb]
  generalize out1_4 (stA V c) (cnA V c) (zA V c) (sqA V c) = G
  funext y
  have e : ((cfg1.win 4).blk t).view.emb y = y := by
    funext a; apply Fin.ext
    have h := (idx_zero1 t).2.2.2.2.1
    match a with
    | ⟨0, _⟩ => show win1_4.index t (0 : Fin 2) * 7000 + 1 * (y 0).val = (y 0).val; rw [h 0]; omega
    | ⟨1, _⟩ => show win1_4.index t (1 : Fin 2) * 128 + 1 * (y 1).val = (y 1).val; rw [h 1]; omega
  show G y = G (((cfg1.win 4).blk t).view.emb y)
  rw [e]

theorem flushed5_eq (c : Dev nD) (t : Fin cfg1.N) :
    (dat1 V c).flushed 5 t
      = ((cfg1.win 5).blk t).view.read (Elt Ideal) (out1_5 (stA V c) (cnA V c) (zA V c) (sqA V c)) := by
  show (cfg1.win 5).cut (grid1.coords t) ((dat1 V c).after 5 t) = _
  rw [after1_5]
  have hb : out1_5 (iblk1 V c 0 t) (iblk1 V c 1 t) (iblk1 V c 2 t) (iblk1 V c 3 t)
      = out1_5 (stA V c) (cnA V c) (zA V c) (sqA V c) :=
    congr (congr (congr (congrArg out1_5 (iblk1_0 V c t)) (iblk1_1 V c t)) (iblk1_2 V c t)) (iblk1_3 V c t)
  rw [hb]
  generalize out1_5 (stA V c) (cnA V c) (zA V c) (sqA V c) = G
  funext y
  have e : ((cfg1.win 5).blk t).view.emb y = y := by
    funext a; apply Fin.ext
    have h := (idx_zero1 t).2.2.2.2.2
    match a with
    | ⟨0, _⟩ => show win1_5.index t (0 : Fin 2) * 1 + 1 * (y 0).val = (y 0).val; rw [h 0]; omega
    | ⟨1, _⟩ => show win1_5.index t (1 : Fin 2) * 1 + 1 * (y 1).val = (y 1).val; rw [h 1]; omega
  show G y = G (((cfg1.win 5).blk t).view.emb y)
  rw [e]

/-- The one point's block of either result is the whole array. -/
theorem cover4 (i : S7000x128.Idx) : ∃ t : Fin cfg1.N, (cfg1.win 4).flush t = true ∧ i ∈ ((cfg1.win 4).blk t).view.set := by
  refine ⟨t1_0, flush1_4 t1_0, ?_⟩
  show i ∈ ((View.whole main_v1_0).slice (win1_4.rect t1_0)).set
  rw [View.set_slice_whole, Rect.mem_set_unit]
  have h := (idx_zero1 t1_0).2.2.2.2.1
  intro a
  match a with
  | ⟨0, _⟩ => show win1_4.index t1_0 (0 : Fin 2) * 7000 ≤ (i 0).val ∧ (i 0).val < win1_4.index t1_0 (0 : Fin 2) * 7000 + 7000; rw [h 0]; have hi : (i 0).val < 7000 := (i 0).isLt; omega
  | ⟨1, _⟩ => show win1_4.index t1_0 (1 : Fin 2) * 128 ≤ (i 1).val ∧ (i 1).val < win1_4.index t1_0 (1 : Fin 2) * 128 + 128; rw [h 1]; have hi : (i 1).val < 128 := (i 1).isLt; omega

theorem cover5 (i : S1x1.Idx) : ∃ t : Fin cfg1.N, (cfg1.win 5).flush t = true ∧ i ∈ ((cfg1.win 5).blk t).view.set := by
  refine ⟨t1_0, flush1_5 t1_0, ?_⟩
  show i ∈ ((View.whole main_v1_1).slice (win1_5.rect t1_0)).set
  rw [View.set_slice_whole, Rect.mem_set_unit]
  have h := (idx_zero1 t1_0).2.2.2.2.2
  intro a
  match a with
  | ⟨0, _⟩ => show win1_5.index t1_0 (0 : Fin 2) * 1 ≤ (i 0).val ∧ (i 0).val < win1_5.index t1_0 (0 : Fin 2) * 1 + 1; rw [h 0]; have hi : (i 0).val < 1 := (i 0).isLt; omega
  | ⟨1, _⟩ => show win1_5.index t1_0 (1 : Fin 2) * 1 ≤ (i 1).val ∧ (i 1).val < win1_5.index t1_0 (1 : Fin 2) * 1 + 1; rw [h 1]; have hi : (i 1).val < 1 := (i 1).isLt; omega

/-- After the second launch its two results hold the body's results on the arrays it found. -/
theorem arr4_final (c : Dev nD) :
    (dat1 V c).arrAt 4 cfg1.N = out1_4 (stA V c) (cnA V c) (zA V c) (sqA V c) :=
  (dat1 V c).arrAt_eq_of_cover 4 _ (fun t _ => flushed4_eq V c t) cover4

theorem arr5_final (c : Dev nD) :
    (dat1 V c).arrAt 5 cfg1.N = out1_5 (stA V c) (cnA V c) (zA V c) (sqA V c) :=
  (dat1 V c).arrAt_eq_of_cover 5 _ (fun t _ => flushed5_eq V c t) cover5

end Region1

section Run

variable (m : (ℓ : Loc nD τ sig) → Buf (Elt Ideal) ℓ) (ρ : Dev nD → PrngReg)

/-- The three arguments as launched. -/
abbrev fM (c : Dev nD) : SF.Idx → EReal := m ((c : Thread nD τ).loc main_arg0)
abbrev lM (c : Dev nD) : SL.Idx → BitVec 32 := m ((c : Thread nD τ).loc main_arg1)
abbrev zM (c : Dev nD) : SZ.Idx → EReal := m ((c : Thread nD τ).loc main_arg2)

/-- What the second launch finds: the first launch's three results, and the centers as launched. -/
theorem found_st (c : Dev nD) :
    stA (V1 m ρ) c = fun j => segCore (fM m c) (lM m c) (j 0) (j 1) (j 2) :=
  (W1_arr m ρ c 2).trans (R0.arr2_final (V0 m ρ) c)

theorem found_cn (c : Dev nD) : cnA (V1 m ρ) c = fun j => cntCore (lM m c) (j 0) (j 2) :=
  (W1_arr m ρ c 3).trans (R0.arr3_final (V0 m ρ) c)

theorem found_sq (c : Dev nD) : sqA (V1 m ρ) c = fun j => sqCore (fM m c) (j 0) :=
  (W1_arr m ρ c 4).trans (R0.arr4_final (V0 m ρ) c)

theorem found_z (c : Dev nD) : zA (V1 m ρ) c = zM m c :=
  W1_of_ne m ρ c main_arg2 (by decide)

/-- The updated centers after the run. -/
theorem result_newc (c : Dev nD) :
    W3 m ρ c (Proc.devRef .tc main_v1_0) = fun j => newcK (fM m c) (lM m c) (zM m c) (j 0) (j 1) := by
  have h1 : W3 m ρ c (Proc.devRef .tc main_v1_0) = W2 m ρ c (Proc.devRef .tc main_v1_0) :=
    StableHlo.after_of_forall_not_mem (b := Proc.devRef .tc main_v1_0) _ _ (List.forall_iff_forall_mem.mp (by
      simp only [hostOps2, List.Forall, StableHlo.reshape_writes, Finset.mem_singleton]
      exact StableHlo.devRef_ne_of_ne (by decide)))
  have h2 : W2 m ρ c (Proc.devRef .tc main_v1_0) = out1_4 (stA (V1 m ρ) c) (cnA (V1 m ρ) c) (zA (V1 m ρ) c) (sqA (V1 m ρ) c) :=
    (W2_arr m ρ c 4).trans (arr4_final (V1 m ρ) c)
  rw [h1, h2]
  funext j
  obtain ⟨k, d, rfl⟩ : ∃ (k : Fin 7000) (d : Fin 128), j = ix2 k d := ⟨j 0, j 1, eq_ix2 j⟩
  rw [R1.out1_4_apply, found_st m ρ c, found_cn m ρ c, found_z m ρ c]
  rfl

/-- The loss after the run. -/
theorem result_loss (c : Dev nD) :
    W3 m ρ c (Proc.devRef .tc main_v2) = fun _ => lossK (fM m c) (lM m c) (zM m c) := by
  have h1 : W3 m ρ c (Proc.devRef .tc main_v2)
      = fun i => shapeCast S_ (W2 m ρ c (Proc.devRef .tc main_v1_1)) shapeCasts_S1x1_S_ i := by
    show StableHlo.after hostOps2 (W2 m ρ c) (Proc.devRef .tc main_v2) = _
    after_results
    rfl
  have h2 : W2 m ρ c (Proc.devRef .tc main_v1_1) = out1_5 (stA (V1 m ρ) c) (cnA (V1 m ρ) c) (zA (V1 m ρ) c) (sqA (V1 m ρ) c) :=
    (W2_arr m ρ c 5).trans (arr5_final (V1 m ρ) c)
  rw [h1, h2]
  funext i
  have hk : (S1x1.rowMajor (ix2 (0 : Fin 1) (0 : Fin 1))).val = (S_.rowMajor i).val := by
    have h1 : (S1x1.rowMajor (ix2 (0 : Fin 1) (0 : Fin 1))).val < 1 := (S1x1.rowMajor _).isLt
    have h2 : (S_.rowMajor i).val < 1 := (S_.rowMajor i).isLt
    omega
  rw [shapeCast_apply _ shapeCasts_S1x1_S_ i (ix2 (0 : Fin 1) (0 : Fin 1)) hk]
  rw [R1.out1_5_apply, found_st m ρ c, found_cn m ρ c, found_z m ρ c, found_sq m ρ c]
  rfl

/-- THE KERNEL'S RUN: from any memory with zero counters every weakly fair execution ends, nothing faulting, with the
    scalar result at the loss and the second result at the updated centers of the one-hot reading, and the three
    arguments as launched. -/
theorem kernel_run :
    θ_run (defs (F := Ideal)) (onTc (τ := τ) (main (F := Ideal))) ⟨m, fun _ => 0, ρ⟩ (fun r => ∀ c : Dev nD,
      r.2.mem ((c.tc : Thread nD τ).loc main_v2) = (fun _ => lossK (fM m c) (lM m c) (zM m c))
      ∧ r.2.mem ((c.tc : Thread nD τ).loc main_v1_0) = (fun j => newcK (fM m c) (lM m c) (zM m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun r h c => ⟨(h c).1.trans (result_loss m ρ c), (h c).2.1.trans (result_newc m ρ c), (h c).2.2⟩)
    (Cert.KernelIdeal.RunResults.run_results (F := Ideal) m ρ)

end Run

end Cert.Hand.KV

end
-- ==== Proof.LibScatterRows.lean ====
/-
  A scatter-add of rows read at an index, on the extended reals.

  Updates [M, C] are added into an operand [R, C]: row p of the updates goes to the operand row named by start index
  p — a column [M, 1] of words read as signed integers and not clamped — and keeps its column; a row whose index falls
  outside the operand is dropped. At (n, o) the result is the operand there plus the sum, over the update rows whose
  index is n, of the update at (p, o).
-/
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

/-- The dimension numbers of a scatter-add of rows, opened: operand [R, C], a column [M, 1] of start indices, updates
    [M, C]; the update's column axis is its one window axis, the operand's row axis is the one inserted axis and the one
    axis a start index names, and the index vector lies along the indices' second axis. -/
abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

/-- On the row axis the window of update (p, q) starts at start index p, read signed and not clamped. -/
theorem scatterRows_start0 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- On the column axis no start index is named: the window of update (p, q) starts at 0. -/
theorem scatterRows_start1 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

/-- The row axis is inserted: the window coordinate of update (p, q) there is 0. -/
theorem scatterRows_window0 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

/-- The column axis is the one window axis: the window coordinate of update (p, q) there is q. -/
theorem scatterRows_window1 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

/-- Update (p, q) lands on operand element (n, o) exactly when start index p, read signed, is n and q is o: on the row
    axis the landing coordinate is the start index (which must lie in [0, R) to land at all), on the column axis it is
    q. -/
theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

/-- THE SCATTER-ADD OF ROWS at (n, o). The four hypotheses are the printed dimension numbers, each by `rfl`. -/
theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1
  -- both filtered sums become sums of guarded terms; the sum over update indices is the double sum over (p, q)
  rw [Finset.sum_filter, Finset.sum_filter, sum_idx2]
  refine Finset.sum_congr rfl fun p _ => ?_
  -- row p: the guard on (p, q) is "start index p is n, and q = o"; the inner sum over q keeps the one term q = o
  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.LibScatterVec.lean ====
/-
  A scatter-add of scalars read at an index, on the extended reals.

  Updates [M] are added into an operand [R]: update p goes to the operand entry named by start index p — a column
  [M, 1] of words read as signed integers and not clamped —; an update whose index falls outside the operand is
  dropped. At n the result is the operand there plus the sum of the updates whose index is n.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.ScatterVec

open Idealize.ShloMosaic Idealize.ShloMosaic.ValueIdx

/-- The dimension numbers of a scatter-add of scalars, opened: operand [R], a column [M, 1] of start indices, updates
    [M]; the updates have no window axis, the operand's one axis is inserted and is the axis a start index names, and
    the index vector lies along the indices' second axis. -/
abbrev scatterVecDims {R M : Nat}
    (wf : ScatterDims.WF ⟨1, ![R]⟩ ⟨2, ![M, 1]⟩ ⟨1, ![M]⟩ [] [0] [0] 1) :
    ScatterDims ⟨1, ![R]⟩ ⟨2, ![M, 1]⟩ ⟨1, ![M]⟩ where
  updateWindowDims := []
  insertedWindowDims := [0]
  scatterDimsToOperandDims := [0]
  indexVectorDim := 1
  wf := wf

/-- The window of update p starts at start index p, read signed and not clamped. -/
theorem scatterVec_start {R M : Nat}
    (wf : ScatterDims.WF ⟨1, ![R]⟩ ⟨2, ![M, 1]⟩ ⟨1, ![M]⟩ [] [0] [0] 1)
    (idx : IVec ⟨2, ![M, 1]⟩ 32) (p : Fin M) :
    (scatterVecDims wf).start (ix1 p) idx (0 : Fin 1) = (idx (ix2 p (0 : Fin 1))).toInt := by
  have hm : (0 : Fin 1) ∈ (scatterVecDims wf).scatterDimsToOperandDims := by
    show (0 : Fin 1) ∈ ([0] : List (Fin 1)); decide
  unfold ScatterDims.start
  rw [dif_pos hm]
  have hsi : (scatterVecDims wf).siIdx (ix1 p) ⟨List.idxOf (0 : Fin 1) (scatterVecDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- The operand's one axis is inserted: the window coordinate of update p there is 0. -/
theorem scatterVec_window {R M : Nat}
    (wf : ScatterDims.WF ⟨1, ![R]⟩ ⟨2, ![M, 1]⟩ ⟨1, ![M]⟩ [] [0] [0] 1) (p : Fin M) :
    (scatterVecDims wf).window (ix1 p) (0 : Fin 1) = 0 := by
  have hk : (0 : Fin 1) ∉ (scatterVecDims wf).sKept := by
    show (0 : Fin 1) ∉ ((List.finRange 1).filter (fun a => a ∉ ([0] : List (Fin 1)))); decide
  unfold ScatterDims.window
  rw [dif_neg hk]

/-- Update p lands on operand entry n exactly when start index p, read signed, is n (it must lie in [0, R) to land at
    all). -/
theorem scatterVec_resultIdx_iff {R M : Nat}
    (wf : ScatterDims.WF ⟨1, ![R]⟩ ⟨2, ![M, 1]⟩ ⟨1, ![M]⟩ [] [0] [0] 1)
    (idx : IVec ⟨2, ![M, 1]⟩ 32) (p : Fin M) (n : Fin R) :
    (scatterVecDims wf).resultIdx? (ix1 p) idx = some (ix1 n)
      ↔ (idx (ix2 p (0 : Fin 1))).toInt = (n.val : Int) := by
  have h0 : (scatterVecDims wf).start (ix1 p) idx (0 : Fin 1) + (scatterVecDims wf).window (ix1 p) (0 : Fin 1)
      = (idx (ix2 p (0 : Fin 1))).toInt := by
    rw [scatterVec_start, scatterVec_window]; simp
  unfold ScatterDims.resultIdx?
  constructor
  · intro h
    split_ifs at h with hc
    have e := Option.some.inj h
    have e0 : ((scatterVecDims wf).start (ix1 p) idx (0 : Fin 1)
        + (scatterVecDims wf).window (ix1 p) (0 : Fin 1)).toNat = n.val := congrArg Fin.val (congrFun e (0 : Fin 1))
    have c0 := (hc (0 : Fin 1)).1
    rw [h0] at e0 c0
    omega
  · intro hn
    have hc : ∀ a : Fin 1, 0 ≤ (scatterVecDims wf).start (ix1 p) idx a + (scatterVecDims wf).window (ix1 p) a
        ∧ (scatterVecDims wf).start (ix1 p) idx a + (scatterVecDims wf).window (ix1 p) a
          < (⟨1, ![R]⟩ : Shape).size a := by
      intro a
      match a with
      | ⟨0, _⟩ =>
        show 0 ≤ (scatterVecDims wf).start (ix1 p) idx (0 : Fin 1) + (scatterVecDims wf).window (ix1 p) (0 : Fin 1)
          ∧ (scatterVecDims wf).start (ix1 p) idx (0 : Fin 1) + (scatterVecDims wf).window (ix1 p) (0 : Fin 1)
            < (R : Int)
        rw [h0, hn]; have := n.isLt; omega
    rw [dif_pos hc]
    congr 1
    funext a
    refine Fin.ext ?_
    match a with
    | ⟨0, _⟩ =>
      show ((scatterVecDims wf).start (ix1 p) idx (0 : Fin 1)
        + (scatterVecDims wf).window (ix1 p) (0 : Fin 1)).toNat = n.val
      rw [h0, hn]; rfl

/-- THE SCATTER-ADD OF SCALARS at n. The four hypotheses are the printed dimension numbers, each by `rfl`. -/
theorem scatter_vec_apply {R M : Nat} (d : ScatterDims ⟨1, ![R]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![R]⟩ : Shape).Idx → EReal) (idx : IVec ⟨2, ![M, 1]⟩ 32) (upd : (⟨1, ![M]⟩ : Shape).Idx → EReal)
    (n : Fin R) :
    Host.scatterAdd (F := Ideal) (φ := .f32) d x idx upd (ix1 n)
      = x (ix1 n) + ∑ p ∈ Finset.univ.filter (fun p : Fin M => (idx (ix2 p (0 : Fin 1))).toInt = (n.val : Int)),
          upd (ix1 p) := by
  obtain ⟨uw, iw, sd, iv, wf⟩ := d
  dsimp only at huw hiw hsd hiv
  subst huw hiw hsd hiv
  show Ideal.hostScatterAdd (scatterVecDims wf) x idx upd (ix1 n) = _
  unfold Ideal.hostScatterAdd
  congr 1
  -- both filtered sums become sums of guarded terms; the sum over update indices is the sum over their one coordinate
  rw [Finset.sum_filter, Finset.sum_filter, ← Equiv.sum_comp (idxEquiv1 (n := M)).symm]
  refine Finset.sum_congr rfl fun p _ => ?_
  show (if (scatterVecDims wf).resultIdx? (ix1 p) idx = some (ix1 n) then upd (ix1 p) else 0) = _
  simp only [scatterVec_resultIdx_iff]

end Cert.ScatterVec

end
-- ==== Proof.RefValue.lean ====
/-
  The reference's two results as the gather-scatter reading of the layer, for labels that are class words.

  When every label is the word of a class below 7000, the wrap of negative labels leaves it alone (a class word is not
  negative as a signed integer), every clamp of a gather is the identity (the class is at most 6999), and no row is
  dropped by a scatter (the class is inside the operand). So the gather of center rows reads the center of the row's
  class, the count scatter gives each class a one per row of that class, the count gather reads the count of the row's
  class, and the closing scatter adds to center k the scaled differences of exactly the rows of class k.
-/
import proofs.«404958_j42099269436115_3_alg».proof.Proof.Gen.ReferenceIdeal.Read
import proofs.«404958_j42099269436115_3_alg».proof.Proof.Spec
import proofs.«404958_j42099269436115_3_alg».proof.Proof.LibScatterRows
import proofs.«404958_j42099269436115_3_alg».proof.Proof.LibTakeRows
import proofs.«404958_j42099269436115_3_alg».proof.Proof.LibScatterVec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

open scoped BigOperators

namespace Cert.Hand.Ref

open Cert.ReferenceIdeal Cert.ReferenceIdeal.Gen Cert.Hand
open Idealize.ShloMosaic Idealize.ShloMosaic.TcCoe Idealize.ShloMosaic.ValueIdx Idealize.SL.Sem
open Cert.ReferenceIdeal.Read

/-! ## Class words -/

/-- A class word is small: below 2³¹ as a natural number. -/
private theorem cls_word_toNat (c : Fin 7000) : (BitVec.ofNat 32 c.val).toNat < 2 ^ 31 := by
  rw [BitVec.toNat_ofNat]; have := c.isLt; omega

/-- Read as a signed integer, a class word is its class. -/
private theorem cls_word_toInt (c : Fin 7000) : (BitVec.ofNat 32 c.val).toInt = (c.val : Int) :=
  StableHlo.Predicate.toInt_ofNat_small c.val (by have := c.isLt; omega)

/-- Two class words read signed agree exactly when the classes do. -/
private theorem cls_word_toInt_eq_iff (c k : Fin 7000) :
    (BitVec.ofNat 32 c.val).toInt = (k.val : Int) ↔ c = k := by
  rw [cls_word_toInt]
  exact ⟨fun h => Fin.ext (Int.ofNat.inj h), fun h => by rw [h]⟩

/-- The wrap of negative labels (label + 7000 where the label is negative) leaves a class word alone. -/
private theorem wrap_word (c : Fin 7000) (a : BitVec 32) :
    Scalar.select (IntOp.cmpi .slt (BitVec.ofNat 32 c.val) 0#32) a (BitVec.ofNat 32 c.val) = BitVec.ofNat 32 c.val := by
  have hne : ¬ IntOp.cmpi .slt (BitVec.ofNat 32 c.val) 0#32 = 1#1 := by
    rw [StableHlo.Predicate.slt_iff_toNat (cls_word_toNat c) (by decide)]
    exact Nat.not_lt_zero _
  exact if_neg hne

/-- The clamp of a class into [0, 6999] is the class. -/
private theorem clamp_cls (c : Fin 7000) (h : min ((c.val : Int)).toNat (7000 - 1) < 7000) :
    (⟨min ((c.val : Int)).toNat (7000 - 1), h⟩ : Fin 7000) = c :=
  Fin.ext (by show min ((c.val : Int)).toNat (7000 - 1) = c.val; have := c.isLt; omega)

/-! ## Index bookkeeping: row p of a column [524288, 1] is entry p of the vector it was broadcast from -/

private theorem col5 (p : Fin 524288) : idx_main_v5 (ix2 p (0 : Fin 1)) = ix1 p := by
  funext a; match a with | ⟨0, _⟩ => rfl
private theorem col13 (p : Fin 524288) : idx_main_v13 (ix2 p (0 : Fin 1)) = ix1 p := by
  funext a; match a with | ⟨0, _⟩ => rfl
private theorem col20 (p : Fin 524288) : idx_main_v20 (ix2 p (0 : Fin 1)) = ix1 p := by
  funext a; match a with | ⟨0, _⟩ => rfl
private theorem col27 (p : Fin 524288) : idx_main_v27 (ix2 p (0 : Fin 1)) = ix1 p := by
  funext a; match a with | ⟨0, _⟩ => rfl
private theorem col36 (p : Fin 524288) : idx_main_v36 (ix2 p (0 : Fin 1)) = ix1 p := by
  funext a; match a with | ⟨0, _⟩ => rfl
/-- Entry (p, d) of the [524288, 128] broadcast of a column reads the column's row p. -/
private theorem row28 (p : Fin 524288) (d : Fin 128) : idx_main_v28 (ix2 p d) = ix2 p (0 : Fin 1) := by
  funext a; match a with | ⟨0, _⟩ => rfl | ⟨1, _⟩ => rfl

/-- The two spellings of the rank-1 index whose one coordinate is p are the same function. -/
private theorem ix1_eq_ofFin {n : Nat} (p : Fin n) : (ix1 p : (⟨1, ![n]⟩ : Shape).Idx) = Shape.Idx.ofFin p := by
  funext a; match a with | ⟨0, _⟩ => exact Fin.ext rfl
/-- The two spellings of the index (p, 0) of a column [n, 1] are the same function. -/
private theorem ixP_eq_ix2 {n : Nat} (p : Fin n) :
    (StableHlo.Predicate.ixP p : (⟨2, ![n, 1]⟩ : Shape).Idx) = ix2 p (0 : Fin 1) := by
  funext a; match a with | ⟨0, _⟩ => rfl | ⟨1, _⟩ => rfl

section
variable (x0 : (⟨S524288x128, .f32⟩ : BufTy).Contents (Elt Ideal)) (x1 : (⟨S524288, .i32⟩ : BufTy).Contents (Elt Ideal))
  (x2 : (⟨S7000x128, .f32⟩ : BufTy).Contents (Elt Ideal)) (cls : Fin 524288 → Fin 7000)
  (hcls : ∀ i : Fin 524288, x1 (ix1 i) = BitVec.ofNat 32 (cls i).val)
include hcls

/-! ## The three wrapped copies of the labels are the labels -/

private theorem lab4 (p : Fin 524288) : val_main_v4 (F := Ideal) x1 (ix1 p) = BitVec.ofNat 32 (cls p).val := by
  rw [val_main_v4_apply, val_main_v1_apply, val_main_v0_apply, val_main_c_apply, hcls p]
  exact wrap_word (cls p) _
private theorem lab19 (p : Fin 524288) : val_main_v19 (F := Ideal) x1 (ix1 p) = BitVec.ofNat 32 (cls p).val := by
  rw [val_main_v19_apply, val_main_v16_apply, val_main_v15_apply, val_main_c_4_apply, hcls p]
  exact wrap_word (cls p) _
private theorem lab35 (p : Fin 524288) : val_main_v35 (F := Ideal) x1 (ix1 p) = BitVec.ofNat 32 (cls p).val := by
  rw [val_main_v35_apply, val_main_v32_apply, val_main_v31_apply, val_main_c_8_apply, hcls p]
  exact wrap_word (cls p) _

/-! ## The gather of center rows -/

/-- Row p of the gathered centers is the center of row p's class. -/
private theorem rows_at (p : Fin 524288) (d : Fin 128) :
    val_main_v6 (F := Ideal) x1 x2 (ix2 p d) = x2 (ix2 (cls p) d) := by
  unfold val_main_v6
  refine (Cert.TakeRows.take_rows_apply _ rfl rfl rfl rfl rfl (by decide) x2 (val_main_v5 (F := Ideal) x1) p d).trans ?_
  have hw : val_main_v5 (F := Ideal) x1 (ix2 p (0 : Fin 1)) = BitVec.ofNat 32 (cls p).val := by
    rw [val_main_v5_apply, col5, lab4 x1 cls hcls]
  simp only [hw, cls_word_toInt, clamp_cls]

/-- The difference of row p from its class's center. -/
private theorem diff_at (p : Fin 524288) (d : Fin 128) :
    val_main_v7 (F := Ideal) x0 x1 x2 (ix2 p d) = x0 (ix2 p d) - x2 (ix2 (cls p) d) := by
  rw [val_main_v7_apply, rows_at x1 x2 cls hcls p d, Ideal.subf_def]

/-! ## The counts -/

/-- The count scatter gives class k a one for every row of class k. -/
private theorem count_at (k : Fin 7000) : val_main_v14 (F := Ideal) x1 (ix1 k) = cntR cls k := by
  unfold val_main_v14
  refine (Cert.ScatterVec.scatter_vec_apply _ rfl rfl rfl rfl (val_main_v12 (F := Ideal))
    (val_main_v13 (F := Ideal) x1) (val_main_v11 (F := Ideal)) k).trans ?_
  rw [val_main_v12_apply, val_main_cst_3_apply, Ideal.ofBits_def, Ideal.ofBits_zero_f32, zero_add]
  unfold cntR
  refine Finset.sum_congr (Finset.filter_congr fun p _ => ?_) fun p _ => ?_
  · rw [val_main_v13_apply, col13, hcls p]
    exact cls_word_toInt_eq_iff (cls p) k
  · rw [val_main_v11_apply, val_main_cst_2_apply, Ideal.ofBits_def]

/-- The count gather reads, at row p, the count of row p's class. -/
private theorem count_row (p : Fin 524288) : val_main_v21 (F := Ideal) x1 (ix1 p) = cntR cls (cls p) := by
  unfold val_main_v21
  rw [ix1_eq_ofFin p]
  refine (StableHlo.Predicate.gather_take _ rfl rfl rfl rfl (val_main_v14 (F := Ideal) x1)
    (val_main_v20 (F := Ideal) x1) p (by decide)).trans ?_
  have hw : val_main_v20 (F := Ideal) x1 (StableHlo.Predicate.ixP p) = BitVec.ofNat 32 (cls p).val := by
    rw [ixP_eq_ix2, val_main_v20_apply, col20, lab19 x1 cls hcls]
  simp only [hw, cls_word_toInt, clamp_cls, ← ix1_eq_ofFin]
  exact count_at x1 cls hcls (cls p)

/-- The scale of row p: (1/2) / (1 + the count of its class). -/
private theorem scale_at (p : Fin 524288) :
    val_main_v25 (F := Ideal) x1 (ix1 p) = Ideal.div half (one + cntR cls (cls p)) := by
  rw [val_main_v25_apply, val_main_v24_apply, val_main_cst_7_apply, val_main_v23_apply, val_main_v22_apply,
    val_main_cst_6_apply, count_row x1 cls hcls p]
  simp only [Ideal.hostDivf_def, Ideal.addf_def, Ideal.ofBits_def]

/-! ## The update rows -/

/-- What row p adds to its class's center at column d. -/
private theorem upd_at (p : Fin 524288) (d : Fin 128) :
    val_main_v30 (F := Ideal) x0 x1 x2 (ix2 p d) = updR x0 x2 cls p d := by
  rw [val_main_v30_apply, val_main_v29_apply, val_main_v26_apply, diff_at x0 x1 x2 cls hcls p d, val_main_v28_apply,
    row28, val_main_v27_apply, col27, scale_at x1 cls hcls p]
  simp only [Ideal.hostNegf_def, Ideal.negf_def, Ideal.mulf_def]
  rfl

end

/-- The reference's loss. -/
theorem ref_loss (x0 : (⟨S524288x128, .f32⟩ : BufTy).Contents (Elt Ideal)) (x1 : (⟨S524288, .i32⟩ : BufTy).Contents (Elt Ideal))
    (x2 : (⟨S7000x128, .f32⟩ : BufTy).Contents (Elt Ideal)) (cls : Fin 524288 → Fin 7000)
    (hcls : ∀ i : Fin 524288, x1 (ix1 i) = BitVec.ofNat 32 (cls i).val) :
    (Cert.ReferenceIdeal.Read.val_main_v10 (F := Ideal) x0 x1 x2 : S_.Idx → EReal) = fun _ => lossR x0 x2 cls := by
  funext i
  rw [val_main_v10_apply, val_main_cst_1_apply, val_main_v9_apply, val_main_cst_apply, sum_idx2]
  simp only [val_main_v8_apply, diff_at x0 x1 x2 cls hcls, Ideal.mulf_def, Ideal.ofBits_def, Ideal.ofBits_zero_f32,
    zero_add]
  rfl

/-- The reference's updated centers. -/
theorem ref_newc (x0 : (⟨S524288x128, .f32⟩ : BufTy).Contents (Elt Ideal)) (x1 : (⟨S524288, .i32⟩ : BufTy).Contents (Elt Ideal))
    (x2 : (⟨S7000x128, .f32⟩ : BufTy).Contents (Elt Ideal)) (cls : Fin 524288 → Fin 7000)
    (hcls : ∀ i : Fin 524288, x1 (ix1 i) = BitVec.ofNat 32 (cls i).val) :
    (Cert.ReferenceIdeal.Read.val_main_v37 (F := Ideal) x0 x1 x2 : S7000x128.Idx → EReal)
      = fun j => newcR x0 x2 cls (j 0) (j 1) := by
  funext j
  obtain ⟨k, d, rfl⟩ : ∃ (k : Fin 7000) (d : Fin 128), j = ix2 k d := ⟨j 0, j 1, eq_ix2 j⟩
  show val_main_v37 (F := Ideal) x0 x1 x2 (ix2 k d) = newcR x0 x2 cls k d
  unfold val_main_v37
  refine (Cert.ScatterRows.scatter_rows_apply _ rfl rfl rfl rfl x2 (val_main_v36 (F := Ideal) x1)
    (val_main_v30 (F := Ideal) x0 x1 x2) k d).trans ?_
  unfold newcR
  refine congrArg (fun s : EReal => x2 (ix2 k d) + s)
    (Finset.sum_congr (Finset.filter_congr fun p _ => ?_) fun p _ => upd_at x0 x1 x2 cls hcls p d)
  rw [val_main_v36_apply, col36, lab35 x1 cls hcls]
  exact cls_word_toInt_eq_iff (cls p) k

end Cert.Hand.Ref

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.PreDecode.lean ====
/-
  What the precondition says: every feature and every center is a real number, and every label is the word of a class.
-/
import proofs.«404958_j42099269436115_3_alg».proof.Pre_finite_inputs
import proofs.«404958_j42099269436115_3_alg».proof.Proof.Spec
import proofs.«404958_j42099269436115_3_alg».proof.Proof.LibERealSage
import Idealize.ShloMosaic.Lib.ValueIdx
import Idealize.ShloMosaic.Lib.ReduceAll
import Idealize.ShloMosaic.Lib.StableHlo.Predicate
import Idealize.ShloMosaic.Lib.IdealHost

noncomputable section

namespace Cert.Hand.Pre

open Cert.Hand Cert.LibERealSage
open Idealize.ShloMosaic Idealize.ShloMosaic.ValueIdx

/-- The rank-0 shape has exactly one index: two of them agree at every (nonexistent) axis. -/
private instance subsingleton_scalar_idx : Subsingleton Cert.Pre_finite_inputs.S_.Idx :=
  ⟨fun a b => funext fun d => d.elim0⟩

/-- The binary32 word with all exponent bits set and no fraction bits reads as plus infinity. -/
private theorem inf_word : Ideal.ofBits .f32 0x7F800000#32 = (⊤ : EReal) := by
  simp [Ideal.ofBits, Ideal.ieee]

/-- If max(x, −x) lies strictly below plus infinity, then x is neither infinity, hence a real number:
    at x = ⊤ the maximum is ⊤ itself, and at x = ⊥ the negation −x = ⊤ is. -/
private theorem isReal_of_abs_lt_inf (x : EReal)
    (h : Ideal.cmp .olt (max x (-x)) (Ideal.ofBits .f32 0x7F800000#32) = 1#1) : IsReal x := by
  rw [inf_word] at h
  unfold Ideal.cmp at h
  rw [StableHlo.Predicate.ofBool_eq_one_iff, decide_eq_true_eq, max_lt_iff] at h
  refine (isReal_iff x).2 ⟨ne_of_lt h.1, fun hb => ?_⟩
  have h2 := h.2
  rw [hb] at h2
  exact absurd h2 (by simp)

/-- A 32-bit word that is nonnegative and below 7000 when read signed is the word of a number below 7000:
    a nonnegative signed reading equals the unsigned one, and a word is determined by its unsigned reading. -/
private theorem word_of_range (w : BitVec 32) (h0 : IntOp.cmpi .sge w 0#32 = 1#1)
    (h1 : IntOp.cmpi .slt w 7000#32 = 1#1) : ∃ k : Fin 7000, w = BitVec.ofNat 32 k.val := by
  rw [IntOp.cmpi_sge] at h0
  rw [IntOp.cmpi_slt] at h1
  have e0 : (0#32 : BitVec 32).toInt = 0 := by decide
  have e1 : (7000#32 : BitVec 32).toInt = 7000 := by decide
  rw [e0] at h0
  rw [e1] at h1
  have hlt := w.isLt
  have hw : w.toNat < 7000 := by
    rw [BitVec.toInt_eq_toNat_cond] at h0 h1
    split at h0 <;> omega
  refine ⟨⟨w.toNat, hw⟩, ?_⟩
  apply BitVec.eq_of_toNat_eq
  rw [BitVec.toNat_ofNat]
  exact (Nat.mod_eq_of_lt (by omega)).symm

theorem pre_decode [Cert.Pre_finite_inputs.Facts]
    (f : FVec Ideal Cert.Pre_finite_inputs.S524288x128 .f32) (lab : IVec Cert.Pre_finite_inputs.S524288 32)
    (z : FVec Ideal Cert.Pre_finite_inputs.S7000x128 .f32)
    (h : Cert.Pre_finite_inputs.fn (F := Ideal) f lab z = fun _ => 1#1) :
    (∀ j, IsReal (f j)) ∧ (∀ j, IsReal (z j))
      ∧ ∃ cls : Fin 524288 → Fin 7000, ∀ i : Fin 524288, lab (ix1 i) = BitVec.ofNat 32 (cls i).val := by
  -- the one entry of the rank-0 result is 1: it is the conjunction of three all-reductions
  have e := congrFun h ValueIdx.ix0
  dsimp only [Cert.Pre_finite_inputs.fn] at e
  obtain ⟨e12, hl⟩ := IntOp.andi_eq_one.1 e
  obtain ⟨hf, hz⟩ := IntOp.andi_eq_one.1 e12
  refine ⟨fun j => ?_, fun j => ?_, ?_⟩
  · -- every entry of the features passes |x| < +∞
    exact isReal_of_abs_lt_inf (f j) (Host.reduce_andi_all _ _ _ _ _ hf j)
  · -- every entry of the centers passes |x| < +∞
    exact isReal_of_abs_lt_inf (z j) (Host.reduce_andi_all _ _ _ _ _ hz j)
  · -- every label passes both signed comparisons, so it is the word of a class; choose that class row by row
    have hk : ∀ i : Fin 524288, ∃ k : Fin 7000, lab (ix1 i) = BitVec.ofNat 32 k.val := fun i => by
      obtain ⟨h0, h1⟩ := IntOp.andi_eq_one.1 (Host.reduce_andi_all _ _ _ _ _ hl (ix1 i))
      exact word_of_range _ h0 h1
    choose cls hcls using hk
    exact ⟨cls, hcls⟩

end Cert.Hand.Pre

end
-- ==== Proof.Algebra.lean ====
/-
  The two readings of the layer agree on real features and centers when every label is a class word.

  Everything is carried to the real numbers. A label that is the word of class cls i makes the one-hot indicator of
  row i at class k the real indicator of cls i = k; the two halves of 262144 rows make up the 524288 rows; so the
  class sums, the class counts and the sum of squares of the one-hot reading are coercions of real sums over all
  rows, and so are the count and the moves of the gather-scatter reading. What is left are two identities between
  finite real sums: a sum over the classes of (a sum over the rows weighted by the indicator) times a class term is
  the sum over the rows of the row's term times its own class's term, which with (f - z)^2 = f^2 - 2 f z + z^2 gives
  the loss; and the sum over the rows of class k of -(-(f - z_k) s_k) is s_k (S_k - n_k z_k), which gives the centers.
-/
import proofs.«404958_j42099269436115_3_alg».proof.Proof.Spec
import proofs.«404958_j42099269436115_3_alg».proof.Proof.LibERealSage
import proofs.«404958_j42099269436115_3_alg».proof.Proof.LibTile
import Idealize.ShloMosaic.Lib.ValueIdx
import Idealize.ShloMosaic.Lib.IdealHost

noncomputable section

open scoped BigOperators

namespace Cert.Hand.Alg

open Cert.Hand Cert.LibERealSage
open Idealize.ShloMosaic Idealize.ShloMosaic.ValueIdx

/-! ## Identities between finite real sums -/

section RealSums

variable {ι κ δ : Type*} [Fintype ι] [Fintype κ] [Fintype δ] [DecidableEq κ]

/-- Summing over the classes the indicator-weighted row sum times a class term gives, row by row, the row's term
    times the term of the row's own class. -/
theorem sum_class_weighted (cls : ι → κ) (G : ι → ℝ) (W : κ → ℝ) :
    ∑ k, (∑ i, G i * (if cls i = k then 1 else 0)) * W k = ∑ i, G i * W (cls i) := by
  simp only [Finset.sum_mul]
  rw [Finset.sum_comm]
  refine Finset.sum_congr rfl fun i _ => ?_
  have h : ∀ k, G i * (if cls i = k then 1 else 0) * W k = if cls i = k then G i * W k else 0 := by
    intro k
    split_ifs <;> ring
  simp only [h, Finset.sum_ite_eq, Finset.mem_univ, if_true]

/-- Summing over the classes the class count times a class term gives the sum over the rows of the term of the
    row's class. -/
theorem sum_class_count (cls : ι → κ) (W : κ → ℝ) :
    ∑ k, (∑ i, if cls i = k then (1 : ℝ) else 0) * W k = ∑ i, W (cls i) := by
  have h := sum_class_weighted cls (fun _ => (1 : ℝ)) W
  simpa only [one_mul] using h

/-- The loss, in the reals: the expanded form over class sums and class counts is the sum of the squared distances
    of the rows to their classes' centers, each taken with the same factor. -/
theorem loss_real (cls : ι → κ) (F : ι → δ → ℝ) (Z : κ → δ → ℝ) (h t : ℝ) (ht : t = 2) :
    h * ((∑ i, ∑ d, F i d * F i d
          - t * ∑ k, ∑ d, (∑ i, F i d * (if cls i = k then 1 else 0)) * Z k d)
        + ∑ k, (∑ i, if cls i = k then (1 : ℝ) else 0) * ∑ d, Z k d * Z k d)
      = h * ∑ i, ∑ d, (F i d - Z (cls i) d) * (F i d - Z (cls i) d) := by
  subst ht
  have hcross : ∑ k, ∑ d, (∑ i, F i d * (if cls i = k then 1 else 0)) * Z k d
      = ∑ i, ∑ d, F i d * Z (cls i) d := by
    rw [Finset.sum_comm, Finset.sum_comm (γ := ι)]
    exact Finset.sum_congr rfl fun d _ => sum_class_weighted cls (fun i => F i d) (fun k => Z k d)
  have hsq : ∑ k, (∑ i, if cls i = k then (1 : ℝ) else 0) * ∑ d, Z k d * Z k d
      = ∑ i, ∑ d, Z (cls i) d * Z (cls i) d :=
    sum_class_count cls (fun k => ∑ d, Z k d * Z k d)
  have hexp : ∀ i d, (F i d - Z (cls i) d) * (F i d - Z (cls i) d)
      = F i d * F i d - 2 * (F i d * Z (cls i) d) + Z (cls i) d * Z (cls i) d := by
    intro i d
    ring
  rw [hcross, hsq]
  simp only [hexp, Finset.sum_add_distrib, Finset.sum_sub_distrib, ← Finset.mul_sum]

/-- The center, in the reals: the moves of the rows of class k add up to the class's step times (class sum minus
    count times center). -/
theorem center_real (cls : ι → κ) (F : ι → ℝ) (Zc : κ → ℝ) (S : κ → ℝ) (k : κ) :
    Zc k + S k * ((∑ i, F i * (if cls i = k then 1 else 0)) - (∑ i, if cls i = k then (1 : ℝ) else 0) * Zc k)
      = Zc k + ∑ p ∈ Finset.univ.filter (fun p => cls p = k), -(-(F p - Zc (cls p)) * S (cls p)) := by
  congr 1
  rw [Finset.sum_filter, Finset.sum_mul, ← Finset.sum_sub_distrib, Finset.mul_sum]
  refine Finset.sum_congr rfl fun p _ => ?_
  split_ifs with hp
  · subst hp
    ring
  · ring

end RealSums

/-! ## From the extended reals to the reals -/

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A family of real extended reals is the coercion of a family of reals. -/
theorem exists_real_family {α : Type*} (g : α → EReal) (h : ∀ j, IsReal (g j)) :
    ∃ gr : α → ℝ, g = fun j => (gr j : EReal) :=
  ⟨fun j => Classical.choose (h j), funext fun j => Classical.choose_spec (h j)⟩

/-- The word 0x3F000000 is one half. -/
theorem half_eq : half = (((1 : ℝ) / 2 : ℝ) : EReal) := by
  simp [Ideal.ofBits, Ideal.ieee, -EReal.coe_mul]; norm_num

/-- The word 0x40000000 is two. -/
theorem two_eq : two = ((2 : ℝ) : EReal) := by
  simp [Ideal.ofBits, Ideal.ieee, -EReal.coe_mul]; norm_num

/-- The word 0x3F800000 is one. -/
theorem one_eq : one = ((1 : ℝ) : EReal) := by
  rw [show one = (1 : EReal) from Ideal.ofBits_one_f32, EReal.coe_one]

/-! ## The indicator, the halves, and the three sums of the one-hot reading -/

/-- Two classes with the same 32-bit word are the same class: both are below 7000, far below 2^32. -/
theorem word_inj (a b : Fin 7000) (h : BitVec.ofNat 32 a.val = BitVec.ofNat 32 b.val) : a = b := by
  have e := congrArg BitVec.toNat h
  simp only [BitVec.toNat_ofNat] at e
  have ha := a.isLt
  have hb := b.isLt
  exact Fin.ext (by omega)

/-- With every label the word of its class, the one-hot indicator is the real indicator of "row i is of class k". -/
theorem hot_coe (lab : SL.Idx → BitVec 32) (cls : Fin 524288 → Fin 7000)
    (hcls : ∀ i : Fin 524288, lab (ix1 i) = BitVec.ofNat 32 (cls i).val) (i : Fin 524288) (k : Fin 7000) :
    hot lab i k = ((if cls i = k then (1 : ℝ) else 0 : ℝ) : EReal) := by
  unfold hot
  rw [hcls i]
  by_cases h : cls i = k
  · rw [if_pos h, if_pos (by rw [h]), EReal.coe_one]
  · rw [if_neg h, if_neg (fun e => h (word_inj _ _ e)), EReal.coe_zero]

/-- The rows of half 0 followed by the rows of half 1 are all the rows. -/
theorem sum_halves {M : Type*} [AddCommMonoid M] (g : Fin 524288 → M) :
    (∑ i : Fin 262144, g (coreRow 0 i)) + ∑ i : Fin 262144, g (coreRow 1 i) = ∑ r : Fin 524288, g r := by
  rw [← LibTile.sum_tiles (m := 2) (n := 262144) rfl g, Fin.sum_univ_two]
  rfl

/-- The number of rows of class k, as a real. -/
def rowsOf (cls : Fin 524288 → Fin 7000) (k : Fin 7000) : ℝ := ∑ r : Fin 524288, if cls r = k then (1 : ℝ) else 0

/-- The step of class k, as a real: (1/2) · 1/(1 + n_k). -/
def stepOf (cls : Fin 524288 → Fin 7000) (k : Fin 7000) : ℝ := (1 : ℝ) / 2 * (1 / (1 + rowsOf cls k))

theorem rowsOf_nonneg (cls : Fin 524288 → Fin 7000) (k : Fin 7000) : 0 ≤ rowsOf cls k :=
  Finset.sum_nonneg fun r _ => by split_ifs <;> norm_num

/-- The class sum of column d over both halves is the coercion of the real sum over the rows of class k. -/
theorem segK_coe (fr : SF.Idx → ℝ) (lab : SL.Idx → BitVec 32) (cls : Fin 524288 → Fin 7000)
    (hcls : ∀ i : Fin 524288, lab (ix1 i) = BitVec.ofNat 32 (cls i).val) (d : Fin 128) (k : Fin 7000) :
    segK (fun j => (fr j : EReal)) lab d k
      = ((∑ r : Fin 524288, fr (ix2 r d) * (if cls r = k then 1 else 0) : ℝ) : EReal) := by
  unfold segK segCore
  rw [sum_halves (fun r => ((fr (ix2 r d) : ℝ) : EReal) * hot lab r k), coe_sum]
  refine Finset.sum_congr rfl fun r _ => ?_
  rw [hot_coe lab cls hcls, EReal.coe_mul]

/-- The class count over both halves is the coercion of the real number of rows of class k. -/
theorem cntK_coe (lab : SL.Idx → BitVec 32) (cls : Fin 524288 → Fin 7000)
    (hcls : ∀ i : Fin 524288, lab (ix1 i) = BitVec.ofNat 32 (cls i).val) (k : Fin 7000) :
    cntK lab k = ((rowsOf cls k : ℝ) : EReal) := by
  unfold cntK cntCore rowsOf
  rw [sum_halves (fun r => hot lab r k), coe_sum]
  exact Finset.sum_congr rfl fun r _ => hot_coe lab cls hcls r k

/-- The sum of squares over both halves is the coercion of the real sum of squares over all rows. -/
theorem sqK_coe (fr : SF.Idx → ℝ) :
    sqK (fun j => (fr j : EReal))
      = ((∑ r : Fin 524288, ∑ d : Fin 128, fr (ix2 r d) * fr (ix2 r d) : ℝ) : EReal) := by
  unfold sqK sqCore
  rw [sum_halves (fun r => ∑ d : Fin 128, ((fr (ix2 r d) : ℝ) : EReal) * ((fr (ix2 r d) : ℝ) : EReal)), coe_sum]
  refine Finset.sum_congr rfl fun r _ => ?_
  rw [coe_sum]
  exact Finset.sum_congr rfl fun d _ => (EReal.coe_mul _ _)

/-- The count of the gather-scatter reading is the same real number of rows of class k. -/
theorem cntR_coe (cls : Fin 524288 → Fin 7000) (k : Fin 7000) : cntR cls k = ((rowsOf cls k : ℝ) : EReal) := by
  unfold cntR rowsOf
  rw [one_eq, ← coe_sum, Finset.sum_filter]

/-- One plus a class count is a positive real, so one half divided by it is the real step. -/
theorem step_coe (cls : Fin 524288 → Fin 7000) (k : Fin 7000) :
    Ideal.div half (one + ((rowsOf cls k : ℝ) : EReal)) = ((stepOf cls k : ℝ) : EReal) := by
  have hpos : (1 : ℝ) + rowsOf cls k ≠ 0 := by
    have := rowsOf_nonneg cls k
    linarith
  unfold stepOf
  rw [one_eq, ← EReal.coe_add, Ideal.div_coe hpos, half_eq, ← EReal.coe_mul]

/-! ## The two theorems -/

theorem lossK_eq_lossR (f : SF.Idx → EReal) (lab : SL.Idx → BitVec 32) (z : SZ.Idx → EReal) (cls : Fin 524288 → Fin 7000)
    (hf : ∀ j, IsReal (f j)) (hz : ∀ j, IsReal (z j))
    (hcls : ∀ i : Fin 524288, lab (ix1 i) = BitVec.ofNat 32 (cls i).val) :
    lossK f lab z = lossR f z cls := by
  obtain ⟨fr, rfl⟩ := exists_real_family f hf
  obtain ⟨zr, rfl⟩ := exists_real_family z hz
  unfold lossK lossR
  simp only [segK_coe fr lab cls hcls, cntK_coe lab cls hcls, sqK_coe, half_eq, two_eq]
  simp only [← EReal.coe_mul, ← coe_sum, ← EReal.coe_sub, ← EReal.coe_add]
  exact congrArg _ (loss_real cls (fun i d => fr (ix2 i d)) (fun k d => zr (ix2 k d)) _ _ rfl)

theorem newcK_eq_newcR (f : SF.Idx → EReal) (lab : SL.Idx → BitVec 32) (z : SZ.Idx → EReal) (cls : Fin 524288 → Fin 7000)
    (hf : ∀ j, IsReal (f j)) (hz : ∀ j, IsReal (z j))
    (hcls : ∀ i : Fin 524288, lab (ix1 i) = BitVec.ofNat 32 (cls i).val) (k : Fin 7000) (d : Fin 128) :
    newcK f lab z k d = newcR f z cls k d := by
  obtain ⟨fr, rfl⟩ := exists_real_family f hf
  obtain ⟨zr, rfl⟩ := exists_real_family z hz
  unfold newcK newcR updR
  simp only [segK_coe fr lab cls hcls, cntK_coe lab cls hcls, cntR_coe, step_coe]
  simp only [← EReal.coe_mul, ← EReal.coe_sub, ← EReal.coe_neg, ← coe_sum, ← EReal.coe_add]
  exact congrArg _ (center_real cls (fun i => fr (ix2 i d)) (fun k => zr (ix2 k d)) (stepOf cls) k)

end Cert.Hand.Alg

end
-- ==== Proof.lean ====
/-
  Center loss: the loss (1/2)·Σ_i |f_i − z_{c(i)}|² and the centers moved towards their class's features,
  z_k + (1/2)/(1 + n_k) · Σ_{i of class k} (f_i − z_k), computed two ways.

  The kernel makes two launches. The first streams the 524288 rows in blocks of 1024, 256 blocks to each of two
  halves, and accumulates per half, through a one-hot matrix of the labels, the class sums of the feature columns, the
  class counts and the sum of all squared features. The second adds the two halves and assembles
  z + (1/2)/(1 + n)·(S − n·z) and (1/2)·((Σ f² − 2·Σ S·z) + Σ n·|z|²). The reference gathers each row's center, sums the
  squared differences, counts the classes by a scatter-add of ones, and scatter-adds every row's scaled difference into
  its center.

  On the extended reals the two agree when the features and the centers are real numbers and every label is one of the
  7000 classes (outside that range the reference reads a clamped center where the one-hot row is empty): expanding the
  square and grouping the rows by class turns one into the other. The claims below are put together from: the
  generated frames; the kernel's run with its results read as the one-hot formulas; the reference's run read as the
  gather-scatter formulas; what the precondition says of the inputs; and the algebra between the two formulas.
-/
import proofs.«404958_j42099269436115_3_alg».proof.Defs
import proofs.«404958_j42099269436115_3_alg».proof.Proof.Gen.Kernel
import proofs.«404958_j42099269436115_3_alg».proof.Proof.Gen.Kernel.Skeleton
import proofs.«404958_j42099269436115_3_alg».proof.Proof.Gen.Kernel.Launch
import proofs.«404958_j42099269436115_3_alg».proof.Proof.Gen.Kernel.Points
import proofs.«404958_j42099269436115_3_alg».proof.Proof.Gen.Kernel.Frame
import proofs.«404958_j42099269436115_3_alg».proof.Proof.Gen.KernelIdeal
import proofs.«404958_j42099269436115_3_alg».proof.Proof.Gen.KernelIdeal.Skeleton
import proofs.«404958_j42099269436115_3_alg».proof.Proof.Gen.KernelIdeal.Launch
import proofs.«404958_j42099269436115_3_alg».proof.Proof.Gen.KernelIdeal.Points
import proofs.«404958_j42099269436115_3_alg».proof.Proof.Gen.KernelIdeal.Frame
import proofs.«404958_j42099269436115_3_alg».proof.Proof.Gen.ReferenceIdeal
import proofs.«404958_j42099269436115_3_alg».proof.Proof.Gen.Pre_finite_inputs
import proofs.«404958_j42099269436115_3_alg».proof.Proof.Gen.ReferenceIdeal.Run
import proofs.«404958_j42099269436115_3_alg».proof.Proof.Gen.ReferenceIdeal.Read
import proofs.«404958_j42099269436115_3_alg».proof.Proof.KernelValue
import proofs.«404958_j42099269436115_3_alg».proof.Proof.RefValue
import proofs.«404958_j42099269436115_3_alg».proof.Proof.PreDecode
import proofs.«404958_j42099269436115_3_alg».proof.Proof.Algebra
import Idealize.ShloMosaic.Adequacy
import Idealize.ShloMosaic.Init

noncomputable section

namespace Cert.Proof

open Idealize.ShloMosaic Idealize.SL.Sem

/-- The reference's frame: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the loss and the updated centers of the one-hot reading: the kernel by its run, the
    reference because, on real features and centers and labels that are classes, its gather-scatter reading is the same
    function. -/
theorem algebraic : Cert.algebraic_KernelIdeal_ReferenceIdeal := by
  intro m ρ m' ρ' hpre hagree
  refine ⟨fun c => fun _ => Cert.Hand.lossK (Cert.Hand.KV.fM m c) (Cert.Hand.KV.lM m c) (Cert.Hand.KV.zM m c),
    fun c => fun j => Cert.Hand.newcK (Cert.Hand.KV.fM m c) (Cert.Hand.KV.lM m c) (Cert.Hand.KV.zM m c) (j 0) (j 1),
    Cert.Hand.KV.kernel_run m ρ, ?_⟩
  refine (θ_run Cert.ReferenceIdeal.defs _ _).mono (fun r h c => ?_) (Cert.ReferenceIdeal.Value.run (F := Ideal) m' ρ')
  obtain ⟨hf, hz, cls, hcls⟩ := Cert.Hand.Pre.pre_decode _ _ _ (hpre c)
  obtain ⟨ha0, ha1, ha2⟩ := hagree c
  refine ⟨?_, ?_, (h c).2.2⟩
  · rw [(h c).1, Cert.ReferenceIdeal.Read.val_main_v10_eq, ha0, ha1, ha2, Cert.Hand.Ref.ref_loss _ _ _ cls hcls]
    funext _
    exact (Cert.Hand.Alg.lossK_eq_lossR _ _ _ cls hf hz hcls).symm
  · rw [(h c).2.1, Cert.ReferenceIdeal.Read.val_main_v37_eq, ha0, ha1, ha2, Cert.Hand.Ref.ref_newc _ _ _ cls hcls]
    funext j
    exact (Cert.Hand.Alg.newcK_eq_newcR _ _ _ cls hf hz hcls (j 0) (j 1)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
